-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S16384 : Shape := ⟨1, ![16384]⟩
abbrev S30522x768 : Shape := ⟨2, ![30522, 768]⟩
abbrev S768 : Shape := ⟨1, ![768]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S30522x768 : S_.BroadcastsInDim S30522x768 (![] : Fin 0 → Fin S30522x768.rank)
  reducesTo_S30522x768_S_d0_1 : S30522x768.ReducesTo [0, 1] S_
  bcast_S_S768 : S_.BroadcastsInDim S768 (![] : Fin 0 → Fin S768.rank)
  reducesTo_S768_S_d0 : S768.ReducesTo [0] S_
  bcast_S_S32x512 : S_.BroadcastsInDim S32x512 (![] : Fin 0 → Fin S32x512.rank)
  reducesTo_S32x512_S_d0_1 : S32x512.ReducesTo [0, 1] S_

variable [Facts]

def fn_part2 {F : FTy → Type} [FloatOps F] (main_arg2 : IVec S16384 32) (main_arg3 : IVec S16384 32) (main_v32 : IVec S_ 1) (main_c_12 : IVec S_ 32) : IVec S_ 1 :=
  let main_v33 : IVec S16384 32 := broadcastInDim S16384 ![] bcast_S_S16384 main_c_12
  let main_v34 : IVec S16384 1 := cmpi .sge main_arg2 main_v33
  let main_c_13 : IVec S_ 32 := constantI S_ 32 256#32
  let main_v35 : IVec S16384 32 := broadcastInDim S16384 ![] bcast_S_S16384 main_c_13
  let main_v36 : IVec S16384 1 := cmpi .slt main_arg2 main_v35
  let main_v37 : IVec S16384 1 := andi main_v34 main_v36
  let main_c_14 : IVec S_ 1 := constantI S_ 1 1#1
  let main_v38 : IVec S_ 1 := (fun x v => Host.reduce IntOp.andi x v reducesTo_S16384_S_d0 h_S_) main_v37 main_c_14
  let main_v39 : IVec S_ 1 := andi main_v32 main_v38
  let main_c_15 : IVec S_ 32 := constantI S_ 32 0#32
  let main_v40 : IVec S16384 32 := broadcastInDim S16384 ![] bcast_S_S16384 main_c_15
  let main_v41 : IVec S16384 1 := cmpi .sge main_arg3 main_v40
  let main_c_16 : IVec S_ 32 := constantI S_ 32 512#32
  let main_v42 : IVec S16384 32 := broadcastInDim S16384 ![] bcast_S_S16384 main_c_16
  let main_v43 : IVec S16384 1 := cmpi .slt main_arg3 main_v42
  let main_v44 : IVec S16384 1 := andi main_v41 main_v43
  let main_c_17 : IVec S_ 1 := constantI S_ 1 1#1
  let main_v45 : IVec S_ 1 := (fun x v => Host.reduce IntOp.andi x v reducesTo_S16384_S_d0 h_S_) main_v44 main_c_17
  let main_v46 : IVec S_ 1 := andi main_v39 main_v45
  main_v46

def fn_part1 {F : FTy → Type} [FloatOps F] (main_arg0 : IVec S32x512 32) (main_arg1 : IVec S16384 32) (main_arg2 : IVec S16384 32) (main_arg3 : IVec S16384 32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_c_6 : IVec S_ 32 := constantI S_ 32 0#32
  let main_v19 : IVec S32x512 32 := broadcastInDim S32x512 ![] bcast_S_S32x512 main_c_6
  let main_v20 : IVec S32x512 1 := cmpi .sge main_arg0 main_v19
  let main_c_7 : IVec S_ 32 := constantI S_ 32 30522#32
  let main_v21 : IVec S32x512 32 := broadcastInDim S32x512 ![] bcast_S_S32x512 main_c_7
  let main_v22 : IVec S32x512 1 := cmpi .slt main_arg0 main_v21
  let main_v23 : IVec S32x512 1 := andi main_v20 main_v22
  let main_c_8 : IVec S_ 1 := constantI S_ 1 1#1
  let main_v24 : IVec S_ 1 := (fun x v => Host.reduce IntOp.andi x v reducesTo_S32x512_S_d0_1 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg1 main_v26
  let main_c_10 : IVec S_ 32 := constantI S_ 32 32#32
  let main_v28 : IVec S16384 32 := broadcastInDim S16384 ![] bcast_S_S16384 main_c_10
  let main_v29 : IVec S16384 1 := cmpi .slt main_arg1 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  let main_c_12 : IVec S_ 32 := constantI S_ 32 0#32
  fn_part2 (F := F) main_arg2 main_arg3 main_v32 main_c_12

def fn {F : FTy → Type} [FloatOps F] (main_arg0 : IVec S32x512 32) (main_arg1 : IVec S16384 32) (main_arg2 : IVec S16384 32) (main_arg3 : IVec S16384 32) (main_arg4 : FVec F S16384 .f32) (main_arg5 : FVec F S30522x768 .f32) (main_arg6 : FVec F S768 .f32) (main_arg7 : FVec F S768 .f32) : IVec S_ 1 :=
  let main_v0 : FVec F S16384 .f32 := Host.absf main_arg4
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S30522x768 .f32 := Host.absf main_arg5
  let main_cst_0 : FVec F S_ .f32 := constant S_ .f32 0x7F800000#32
  let main_v5 : FVec F S30522x768 .f32 := broadcastInDim S30522x768 ![] bcast_S_S30522x768 main_cst_0
  let main_v6 : IVec S30522x768 1 := cmpf .olt main_v4 main_v5
  let main_c_1 : IVec S_ 1 := constantI S_ 1 1#1
  let main_v7 : IVec S_ 1 := (fun x v => Host.reduce IntOp.andi x v reducesTo_S30522x768_S_d0_1 h_S_) main_v6 main_c_1
  let main_v8 : IVec S_ 1 := andi main_v3 main_v7
  let main_v9 : FVec F S768 .f32 := Host.absf main_arg6
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg7
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg0 main_arg1 main_arg2 main_arg3 main_v13 main_v16
-- ==== Kernel.lean ====
abbrev S32x512 : Shape := ⟨2, ![32, 512]⟩
abbrev S16384 : Shape := ⟨1, ![16384]⟩
abbrev S30522x768 : Shape := ⟨2, ![30522, 768]⟩
abbrev S768 : Shape := ⟨1, ![768]⟩
abbrev S_ : Shape := ⟨0, ![]⟩
abbrev S32x512x1 : Shape := ⟨3, ![32, 512, 1]⟩
abbrev S32x512x768 : Shape := ⟨3, ![32, 512, 768]⟩
abbrev S32x256x512 : Shape := ⟨3, ![32, 256, 512]⟩
abbrev S16384x1 : Shape := ⟨2, ![16384, 1]⟩
abbrev S16384x3 : Shape := ⟨2, ![16384, 3]⟩
abbrev S1x768 : Shape := ⟨2, ![1, 768]⟩
abbrev S32x256x768 : Shape := ⟨3, ![32, 256, 768]⟩
abbrev S4x256x512 : Shape := ⟨3, ![4, 256, 512]⟩
abbrev S4x512x768 : Shape := ⟨3, ![4, 512, 768]⟩
abbrev S4x256x768 : Shape := ⟨3, ![4, 256, 768]⟩
abbrev S4x256 : Shape := ⟨2, ![4, 256]⟩
abbrev S4x256x1 : Shape := ⟨3, ![4, 256, 1]⟩
abbrev S1x1x768 : Shape := ⟨3, ![1, 1, 768]⟩

abbrev nBuf : Space → Nat
  | .hbm => 58
  | .vmem => 8
  | .smem => 0
  | _ => 0

abbrev bufTy : (tb : Table) → Fin (tcTables nBuf tb) → BufTy
  | .hbm, ⟨0, _⟩ => ⟨S32x512, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .f32⟩
  | .hbm, ⟨5, _⟩ => ⟨S30522x768, .f32⟩
  | .hbm, ⟨6, _⟩ => ⟨S768, .f32⟩
  | .hbm, ⟨7, _⟩ => ⟨S768, .f32⟩
  | .hbm, ⟨8, _⟩ => ⟨S_, .i32⟩
  | .hbm, ⟨9, _⟩ => ⟨S32x512, .i32⟩
  | .hbm, ⟨10, _⟩ => ⟨S32x512, .i1⟩
  | .hbm, ⟨11, _⟩ => ⟨S_, .i32⟩
  | .hbm, ⟨12, _⟩ => ⟨S32x512, .i32⟩
  | .hbm, ⟨13, _⟩ => ⟨S32x512, .i32⟩
  | .hbm, ⟨14, _⟩ => ⟨S32x512, .i32⟩
  | .hbm, ⟨15, _⟩ => ⟨S32x512x1, .i32⟩
  | .hbm, ⟨16, _⟩ => ⟨S32x512x768, .f32⟩
  | .hbm, ⟨17, _⟩ => ⟨S_, .i32⟩
  | .hbm, ⟨18, _⟩ => ⟨S32x512, .i32⟩
  | .hbm, ⟨19, _⟩ => ⟨S32x512, .i1⟩
  | .hbm, ⟨20, _⟩ => ⟨S32x512x1, .i1⟩
  | .hbm, ⟨21, _⟩ => ⟨S_, .f32⟩
  | .hbm, ⟨22, _⟩ => ⟨S_, .f32⟩
  | .hbm, ⟨23, _⟩ => ⟨S32x512x768, .i1⟩
  | .hbm, ⟨24, _⟩ => ⟨S32x512x768, .f32⟩
  | .hbm, ⟨25, _⟩ => ⟨S32x512x768, .f32⟩
  | .hbm, ⟨26, _⟩ => ⟨S32x512x768, .bf16⟩
  | .hbm, ⟨27, _⟩ => ⟨S_, .f32⟩
  | .hbm, ⟨28, _⟩ => ⟨S32x256x512, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x1, .i32⟩
  | .hbm, ⟨52, _⟩ => ⟨S16384x1, .i32⟩
  | .hbm, ⟨53, _⟩ => ⟨S16384x3, .i32⟩
  | .hbm, ⟨54, _⟩ => ⟨S32x256x512, .f32⟩
  | .hbm, ⟨55, _⟩ => ⟨S1x768, .f32⟩
  | .hbm, ⟨56, _⟩ => ⟨S1x768, .f32⟩
  | .hbm, ⟨57, _⟩ => ⟨S32x256x768, .f32⟩
  | .local _ .vmem, ⟨0, _⟩ => ⟨S4x256x512, .f32⟩
  | .local _ .vmem, ⟨1, _⟩ => ⟨S4x256x512, .f32⟩
  | .local _ .vmem, ⟨2, _⟩ => ⟨S4x512x768, .bf16⟩
  | .local _ .vmem, ⟨3, _⟩ => ⟨S4x512x768, .bf16⟩
  | .local _ .vmem, ⟨4, _⟩ => ⟨S1x768, .f32⟩
  | .local _ .vmem, ⟨5, _⟩ => ⟨S1x768, .f32⟩
  | .local _ .vmem, ⟨6, _⟩ => ⟨S4x256x768, .f32⟩
  | .local _ .vmem, ⟨7, _⟩ => ⟨S4x256x768, .f32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x768_0_1_2 : S32x512x1.BroadcastsInDim S32x512x768 (![0, 1, 2] : Fin 3 → Fin S32x512x768.rank)
  bcast_S_S32x512x768 : S_.BroadcastsInDim S32x512x768 (![] : Fin 0 → Fin S32x512x768.rank)
  bitsLt_bf16_f32 : FTy.bits .bf16 < FTy.bits .f32
  bcast_S_S32x256x512 : S_.BroadcastsInDim S32x256x512 (![] : Fin 0 → Fin S32x256x512.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x1_S16384x3_d1 : Shape.Concatenates [S16384x1, S16384x1, S16384x1] S16384x3 1
  shapeCasts_S768_S1x768 : S768.ShapeCasts S1x768
  inb_S4x256x512_S4x256x512_0_0_0 : ∀ a, (![0, 0, 0] : Fin 3 → Nat) a + S4x256x512.size a ≤ S4x256x512.size a
  h_S4x256x512 : 0 < S4x256x512.numel
  shapeCasts_S4x256x512_S4x256x512 : S4x256x512.ShapeCasts S4x256x512
  inb_S4x512x768_S4x512x768_0_0_0 : ∀ a, (![0, 0, 0] : Fin 3 → Nat) a + S4x512x768.size a ≤ S4x512x768.size a
  h_S4x512x768 : 0 < S4x512x768.numel
  shapeCasts_S4x512x768_S4x512x768 : S4x512x768.ShapeCasts S4x512x768
  reduces_S4x256x768_S4x256 : S4x256x768.Reduces [2] S4x256
  shapeCasts_S4x256_S4x256x1 : S4x256.ShapeCasts S4x256x1
  broadcasts_S4x256x1_S4x256x768 : S4x256x1.Broadcasts S4x256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  shapeCasts_S1x768_S1x1x768 : S1x768.ShapeCasts S1x1x768
  broadcasts_S1x1x768_S4x256x768 : S1x1x768.Broadcasts S4x256x768
  inb_S4x256x768_S4x256x768_0_0_0 : ∀ a, (![0, 0, 0] : Fin 3 → Nat) a + S4x256x768.size a ≤ S4x256x768.size a
  h_S4x256x768 : 0 < S4x256x768.numel
  gather_S30522x768_S32x512x1_S32x512x768_2_0_n_n_0_2_1768_wf : GatherDims.WF S30522x768 S32x512x1 S32x512x768 [2] [0] [] [0] [] 2 ![1, 768]
  scatter_S32x256x512_S16384x3_S16384_n_012_012_1_wf : ScatterDims.WF S32x256x512 S16384x3 S16384 [] [0, 1, 2] [0, 1, 2] 1
  dot_S4x256x512_S4x512x768_S4x256x768_2_1_1_2_0_0_wf : DotDims.WF S4x256x512 S4x512x768 S4x256x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x512.size a ≤ S32x256x512.size a
  hwx0_0 : ∀ i : grid0.Coords, EltTy.bits .f32 = 32 ∨ (Rect.block (s := S32x256x512) S4x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x768.size a ≤ S32x512x768.size a
  hwx0_1 : ∀ i : grid0.Coords, EltTy.bits .bf16 = 32 ∨ (Rect.block (s := S32x512x768) S4x512x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x768.size a ≤ S32x256x768.size a
  hwx0_4 : ∀ i : grid0.Coords, EltTy.bits .f32 = 32 ∨ (Rect.block (s := S32x256x768) S4x256x768.size (cc0_transform_4 i) (hinb0_4 i)).WholeWords (EltTy.packing .f32)

variable [Facts₀]

def gather_S30522x768_S32x512x1_S32x512x768_2_0_n_n_0_2_1768 : GatherDims S30522x768 S32x512x1 S32x512x768 where
  offsetDims := [2]
  collapsedSliceDims := [0]
  operandBatchingDims := []
  startIndicesBatchingDims := []
  startIndexMap := [0]
  indexVectorDim := 2
  sliceSizes := ![1, 768]
  wf := gather_S30522x768_S32x512x1_S32x512x768_2_0_n_n_0_2_1768_wf
def scatter_S32x256x512_S16384x3_S16384_n_012_012_1 : ScatterDims S32x256x512 S16384x3 S16384 where
  updateWindowDims := []
  insertedWindowDims := [0, 1, 2]
  scatterDimsToOperandDims := [0, 1, 2]
  indexVectorDim := 1
  wf := scatter_S32x256x512_S16384x3_S16384_n_012_012_1_wf
def dot_S4x256x512_S4x512x768_S4x256x768_2_1_1_2_0_0 : DotDims S4x256x512 S4x512x768 S4x256x768 where
  lhsContracting := [2]
  rhsContracting := [1]
  lhsNonContracting := [1]
  rhsNonContracting := [2]
  lhsBatch := [0]
  rhsBatch := [0]
  wf := dot_S4x256x512_S4x512x768_S4x256x768_2_1_1_2_0_0_wf

abbrev win0_0 : Pipeline.Window sig grid0 :=
  Pipeline.Window.ofSpec (Memref.whole main_v32) S4x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S4x256x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512 : Shape := ⟨2, ![32, 512]⟩
abbrev S16384 : Shape := ⟨1, ![16384]⟩
abbrev S30522x768 : Shape := ⟨2, ![30522, 768]⟩
abbrev S768 : Shape := ⟨1, ![768]⟩
abbrev S_ : Shape := ⟨0, ![]⟩
abbrev S1 : Shape := ⟨1, ![1]⟩
abbrev S16384x1 : Shape := ⟨2, ![16384, 1]⟩
abbrev S16384x768 : Shape := ⟨2, ![16384, 768]⟩
abbrev S8192x768 : Shape := ⟨2, ![8192, 768]⟩
abbrev S32x256x768 : Shape := ⟨3, ![32, 256, 768]⟩
abbrev S32x256 : Shape := ⟨2, ![32, 256]⟩
abbrev S32x256x1 : Shape := ⟨3, ![32, 256, 1]⟩
abbrev S1x1x768 : Shape := ⟨3, ![1, 1, 768]⟩

abbrev nBuf : Space → Nat
  | .hbm => 92
  | .vmem => 0
  | .smem => 0
  | _ => 0

abbrev bufTy : (tb : Table) → Fin (tcTables nBuf tb) → BufTy
  | .hbm, ⟨0, _⟩ => ⟨S32x512, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .f32⟩
  | .hbm, ⟨5, _⟩ => ⟨S30522x768, .f32⟩
  | .hbm, ⟨6, _⟩ => ⟨S768, .f32⟩
  | .hbm, ⟨7, _⟩ => ⟨S768, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S768, .f32⟩
  | .hbm, ⟨12, _⟩ => ⟨S30522x768, .f32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x768, .f32⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x768, .f32⟩
  | .hbm, ⟨40, _⟩ => ⟨S16384x1, .f32⟩
  | .hbm, ⟨41, _⟩ => ⟨S16384x768, .f32⟩
  | .hbm, ⟨42, _⟩ => ⟨S16384x768, .f32⟩
  | .hbm, ⟨43, _⟩ => ⟨S_, .f32⟩
  | .hbm, ⟨44, _⟩ => ⟨S8192x768, .f32⟩
  | .hbm, ⟨45, _⟩ => ⟨S16384x1, .i32⟩
  | .hbm, ⟨46, _⟩ => ⟨S8192x768, .f32⟩
  | .hbm, ⟨47, _⟩ => ⟨S32x256x768, .f32⟩
  | .hbm, ⟨48, _⟩ => ⟨S_, .f32⟩
  | .hbm, ⟨49, _⟩ => ⟨S32x256, .f32⟩
  | .hbm, ⟨50, _⟩ => ⟨S32x256x1, .f32⟩
  | .hbm, ⟨51, _⟩ => ⟨S_, .f32⟩
  | .hbm, ⟨52, _⟩ => ⟨S32x256x1, .f32⟩
  | .hbm, ⟨53, _⟩ => ⟨S32x256x1, .f32⟩
  | .hbm, ⟨54, _⟩ => ⟨S_, .i32⟩
  | .hbm, ⟨55, _⟩ => ⟨S_, .f32⟩
  | .hbm, ⟨56, _⟩ => ⟨S32x256, .f32⟩
  | .hbm, ⟨57, _⟩ => ⟨S32x256x1, .f32⟩
  | .hbm, ⟨58, _⟩ => ⟨S_, .f32⟩
  | .hbm, ⟨59, _⟩ => ⟨S32x256x1, .f32⟩
  | .hbm, ⟨60, _⟩ => ⟨S32x256x1, .f32⟩
  | .hbm, ⟨61, _⟩ => ⟨S32x256x768, .f32⟩
  | .hbm, ⟨62, _⟩ => ⟨S32x256x768, .f32⟩
  | .hbm, ⟨63, _⟩ => ⟨S32x256x768, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S32x256, .f32⟩
  | .hbm, ⟨69, _⟩ => ⟨S32x256x1, .f32⟩
  | .hbm, ⟨70, _⟩ => ⟨S32x256x1, .f32⟩
  | .hbm, ⟨71, _⟩ => ⟨S32x256x1, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S32x256x1, .f32⟩
  | .hbm, ⟨77, _⟩ => ⟨S32x256x1, .f32⟩
  | .hbm, ⟨78, _⟩ => ⟨S32x256x768, .f32⟩
  | .hbm, ⟨79, _⟩ => ⟨S32x256x768, .f32⟩
  | .hbm, ⟨80, _⟩ => ⟨S_, .f32⟩
  | .hbm, ⟨81, _⟩ => ⟨S32x256x1, .f32⟩
  | .hbm, ⟨82, _⟩ => ⟨S32x256x1, .f32⟩
  | .hbm, ⟨83, _⟩ => ⟨S32x256x1, .f32⟩
  | .hbm, ⟨84, _⟩ => ⟨S32x256x768, .f32⟩
  | .hbm, ⟨85, _⟩ => ⟨S32x256x768, .f32⟩
  | .hbm, ⟨86, _⟩ => ⟨S1x1x768, .f32⟩
  | .hbm, ⟨87, _⟩ => ⟨S32x256x768, .f32⟩
  | .hbm, ⟨88, _⟩ => ⟨S32x256x768, .f32⟩
  | .hbm, ⟨89, _⟩ => ⟨S1x1x768, .f32⟩
  | .hbm, ⟨90, _⟩ => ⟨S32x256x768, .f32⟩
  | .hbm, ⟨91, _⟩ => ⟨S32x256x768, .f32⟩
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_cst_3 : Ref sig .tc := ⟨.hbm, 72, rfl⟩
abbrev main_call0_v13 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_10 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S768 : S_.BroadcastsInDim S768 (![] : Fin 0 → Fin S768.rank)
  shapeCasts_S32x512_S16384 : S32x512.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x768_0_1 : S16384x1.BroadcastsInDim S16384x768 (![0, 1] : Fin 2 → Fin S16384x768.rank)
  bcast_S_S8192x768 : S_.BroadcastsInDim S8192x768 (![] : Fin 0 → Fin S8192x768.rank)
  shapeCasts_S8192x768_S32x256x768 : S8192x768.ShapeCasts S32x256x768
  reducesTo_S32x256x768_S32x256_d2 : S32x256x768.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x768_0_1_2 : S32x256x1.BroadcastsInDim S32x256x768 (![0, 1, 2] : Fin 3 → Fin S32x256x768.rank)
  bcast_S768_S1x1x768_2 : S768.BroadcastsInDim S1x1x768 (![2] : Fin 1 → Fin S1x1x768.rank)
  bcast_S1x1x768_S32x256x768_0_1_2 : S1x1x768.BroadcastsInDim S32x256x768 (![0, 1, 2] : Fin 3 → Fin S32x256x768.rank)
  scatter_S30522x768_S1_S768_0_0_0_0_wf : ScatterDims.WF S30522x768 S1 S768 [0] [0] [0] 0
  gather_S30522x768_S16384x1_S16384x768_1_0_n_n_0_1_1768_wf : GatherDims.WF S30522x768 S16384x1 S16384x768 [1] [0] [] [0] [] 1 ![1, 768]
  gather_S16384x768_S16384x1_S16384x768_1_0_n_n_0_1_1768_wf : GatherDims.WF S16384x768 S16384x1 S16384x768 [1] [0] [] [0] [] 1 ![1, 768]
  scatter_S8192x768_S16384x1_S16384x768_1_0_0_1_wf : ScatterDims.WF S8192x768 S16384x1 S16384x768 [1] [0] [0] 1

variable [Facts₀]

def scatter_S30522x768_S1_S768_0_0_0_0 : ScatterDims S30522x768 S1 S768 where
  updateWindowDims := [0]
  insertedWindowDims := [0]
  scatterDimsToOperandDims := [0]
  indexVectorDim := 0
  wf := scatter_S30522x768_S1_S768_0_0_0_0_wf
def gather_S30522x768_S16384x1_S16384x768_1_0_n_n_0_1_1768 : GatherDims S30522x768 S16384x1 S16384x768 where
  offsetDims := [1]
  collapsedSliceDims := [0]
  operandBatchingDims := []
  startIndicesBatchingDims := []
  startIndexMap := [0]
  indexVectorDim := 1
  sliceSizes := ![1, 768]
  wf := gather_S30522x768_S16384x1_S16384x768_1_0_n_n_0_1_1768_wf
def gather_S16384x768_S16384x1_S16384x768_1_0_n_n_0_1_1768 : GatherDims S16384x768 S16384x1 S16384x768 where
  offsetDims := [1]
  collapsedSliceDims := [0]
  operandBatchingDims := []
  startIndicesBatchingDims := []
  startIndexMap := [0]
  indexVectorDim := 1
  sliceSizes := ![1, 768]
  wf := gather_S16384x768_S16384x1_S16384x768_1_0_n_n_0_1_1768_wf
def scatter_S8192x768_S16384x1_S16384x768_1_0_0_1 : ScatterDims S8192x768 S16384x1 S16384x768 where
  updateWindowDims := [1]
  insertedWindowDims := [0]
  scatterDimsToOperandDims := [0]
  indexVectorDim := 1
  wf := scatter_S8192x768_S16384x1_S16384x768_1_0_0_1_wf

class Facts : Prop extends Facts₀ where

variable [Facts]
-- ==== Proof.KFrame.lean ====
/-
  The frame of this program, at any float instance: every weakly fair execution of @main terminates without a fault and leaves
  the eight argument arrays as they were.

  @main is three stretches of host operations (the embedding gather with its padding mask; the mask's select; the dense
  pooling matrix by a scatter-add, and the two reshapes) followed by ONE pipelined region over a grid of 8 points. At point `t`
  the body loads the four input windows' blocks (4 batches of the pooling matrix, 4 batches of embeddings, the LayerNorm scale and
  shift), computes, and stores the whole 4×256×768 output block; it keeps nothing between points. So what the output window's
  staging buffer holds after the body is one whole-block store of the payload over the input blocks, each input buffer is left
  as fetched, and the library's frame run applies.
-/
import proofs.«413540_j35467839930966_2_alg».proof.Proof.Gen.Kernel.Launch
import proofs.«413540_j35467839930966_2_alg».proof.Proof.Gen.Kernel.Skeleton
import proofs.«413540_j35467839930966_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim's post: no window stages an argument array, so each is among the buffers the run
    leaves as the region found them, and no host operation wrote it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S4x256x512 := Rect.unit (s := S4x256x512) ![0, 0, 0] S4x256x512.size inb_S4x256x512_S4x256x512_0_0_0
abbrev r0_1 : Rect S4x512x768 := Rect.unit (s := S4x512x768) ![0, 0, 0] S4x512x768.size inb_S4x512x768_S4x512x768_0_0_0
abbrev r0_2 : Rect S1x768 := Rect.unit (s := S1x768) ![0, 0] S1x768.size inb_S1x768_S1x768_0_0
abbrev r0_4 : Rect S4x256x768 := Rect.unit (s := S4x256x768) ![0, 0, 0] S4x256x768.size inb_S4x256x768_S4x256x768_0_0_0

/-! ## What the body leaves in the output window's buffer -/

/-- The output window's staging buffer after the body, from the input windows' blocks: its one store, of the whole block. -/
def out0_4 (x0 : Vec F S4x256x512 .f32) (x1 : Vec F S4x512x768 .bf16) (x2 : Vec F S1x768 .f32) (x3 : Vec F S1x768 .f32) : Vec F S4x256x768 .f32 :=
  View.canon [⟨r0_4, k0_pay1 (View.ld x0 r0_0) (View.ld x1 r0_1) (View.ld x2 r0_2) (View.ld x3 r0_2)⟩]

/-- The store covers the buffer. -/
theorem cover0_4 (p0 : Vec F S4x256x768 .f32) (y : S4x256x768.Idx) :
    ∃ pc ∈ ([⟨r0_4, p0⟩] : List (View.Piece (Elt F) S4x256x768 .f32)), y ∈ pc.1.set :=
  View.cover_of_tiled [⟨r0_4, p0⟩] S4x256x768.size (by rfl) y

/-! ## The body's triple -/

set_option maxHeartbeats 1000000 in
/-- The kernel body on whole staging memrefs, the inputs' at contents `xW` and the output's at anything, runs to the
    continuation holding the inputs' as they were and the output's at `out0_4` of the inputs'. -/
theorem sound_kernel (c : Dev nD) (E : Set ℕ) (i : grid0.Coords)
    (arg1 : Memref sig .tc .vmem S4x256x512 .f32) (harg1 : arg1.IsWhole) (arg2 : Memref sig .tc .vmem S4x512x768 .bf16) (harg2 : arg2.IsWhole)
    (arg3 : Memref sig .tc .vmem S1x768 .f32) (harg3 : arg3.IsWhole) (arg4 : Memref sig .tc .vmem S1x768 .f32) (harg4 : arg4.IsWhole)
    (arg5 : Memref sig .tc .vmem S4x256x768 .f32) (harg5 : arg5.IsWhole)
    (x0 : Vec F S4x256x512 .f32) (x1 : Vec F S4x512x768 .bf16) (x2 : Vec F S1x768 .f32) (x3 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__pooled_ln_kernel i arg1 harg1 arg2 harg2 arg3 harg3 arg4 harg4 arg5 harg5) K := by
  simp only [cc0__pooled_ln_kernel_eq_skeleton]; unfold cc0__pooled_ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t` each
    input's buffer at its block and the output's at `out0_4` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`: the invariant, what is owed, and each window's current staging buffer at what
    it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: each input's buffer holds its block, so the body's triple applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the windows' conjunction written out, then the body's triple. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KIFrame.lean ====
/-
  The frame of this program, at any float instance: every weakly fair execution of @main terminates without a fault and leaves
  the eight argument arrays as they were.

  @main is three stretches of host operations (the embedding gather with its padding mask; the mask's select; the dense
  pooling matrix by a scatter-add, and the two reshapes) followed by ONE pipelined region over a grid of 8 points. At point `t`
  the body loads the four input windows' blocks (4 batches of the pooling matrix, 4 batches of embeddings, the LayerNorm scale and
  shift), computes, and stores the whole 4×256×768 output block; it keeps nothing between points. So what the output window's
  staging buffer holds after the body is one whole-block store of the payload over the input blocks, each input buffer is left
  as fetched, and the library's frame run applies.
-/
import proofs.«413540_j35467839930966_2_alg».proof.Proof.Gen.KernelIdeal.Launch
import proofs.«413540_j35467839930966_2_alg».proof.Proof.Gen.KernelIdeal.Skeleton
import proofs.«413540_j35467839930966_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim's post: no window stages an argument array, so each is among the buffers the run
    leaves as the region found them, and no host operation wrote it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S4x256x512 := Rect.unit (s := S4x256x512) ![0, 0, 0] S4x256x512.size inb_S4x256x512_S4x256x512_0_0_0
abbrev r0_1 : Rect S4x512x768 := Rect.unit (s := S4x512x768) ![0, 0, 0] S4x512x768.size inb_S4x512x768_S4x512x768_0_0_0
abbrev r0_2 : Rect S1x768 := Rect.unit (s := S1x768) ![0, 0] S1x768.size inb_S1x768_S1x768_0_0
abbrev r0_4 : Rect S4x256x768 := Rect.unit (s := S4x256x768) ![0, 0, 0] S4x256x768.size inb_S4x256x768_S4x256x768_0_0_0

/-! ## What the body leaves in the output window's buffer -/

/-- The output window's staging buffer after the body, from the input windows' blocks: its one store, of the whole block. -/
def out0_4 (x0 : Vec F S4x256x512 .f32) (x1 : Vec F S4x512x768 .bf16) (x2 : Vec F S1x768 .f32) (x3 : Vec F S1x768 .f32) : Vec F S4x256x768 .f32 :=
  View.canon [⟨r0_4, k0_pay1 (View.ld x0 r0_0) (View.ld x1 r0_1) (View.ld x2 r0_2) (View.ld x3 r0_2)⟩]

/-- The store covers the buffer. -/
theorem cover0_4 (p0 : Vec F S4x256x768 .f32) (y : S4x256x768.Idx) :
    ∃ pc ∈ ([⟨r0_4, p0⟩] : List (View.Piece (Elt F) S4x256x768 .f32)), y ∈ pc.1.set :=
  View.cover_of_tiled [⟨r0_4, p0⟩] S4x256x768.size (by rfl) y

/-! ## The body's triple -/

set_option maxHeartbeats 1000000 in
/-- The kernel body on whole staging memrefs, the inputs' at contents `xW` and the output's at anything, runs to the
    continuation holding the inputs' as they were and the output's at `out0_4` of the inputs'. -/
theorem sound_kernel (c : Dev nD) (E : Set ℕ) (i : grid0.Coords)
    (arg1 : Memref sig .tc .vmem S4x256x512 .f32) (harg1 : arg1.IsWhole) (arg2 : Memref sig .tc .vmem S4x512x768 .bf16) (harg2 : arg2.IsWhole)
    (arg3 : Memref sig .tc .vmem S1x768 .f32) (harg3 : arg3.IsWhole) (arg4 : Memref sig .tc .vmem S1x768 .f32) (harg4 : arg4.IsWhole)
    (arg5 : Memref sig .tc .vmem S4x256x768 .f32) (harg5 : arg5.IsWhole)
    (x0 : Vec F S4x256x512 .f32) (x1 : Vec F S4x512x768 .bf16) (x2 : Vec F S1x768 .f32) (x3 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__pooled_ln_kernel i arg1 harg1 arg2 harg2 arg3 harg3 arg4 harg4 arg5 harg5) K := by
  simp only [cc0__pooled_ln_kernel_eq_skeleton]; unfold cc0__pooled_ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t` each
    input's buffer at its block and the output's at `out0_4` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`: the invariant, what is owed, and each window's current staging buffer at what
    it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: each input's buffer holds its block, so the body's triple applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: the windows' conjunction written out, then the body's triple. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Spec.lean ====
/-
  What both programs compute, as one function of the argument arrays, index by index, over the extended reals.

  Inputs: `ids : [32, 512]` subword ids, the COO triples `(mb, mn, ms) : [16384]` (batch, node, subword position) with
  weights `vals : [16384]`, the embedding table `tab : [30522, 768]`, and the LayerNorm scale and shift `γ β : [768]`.

  * `emb b s h` — the embedding of subword `s` of batch `b`: row `ids[b, s]` of the table, the padding id `0` giving the
    zero row.
  * `pool b n h` — node `n` of batch `b` pools the embeddings of the subwords its triples name, weighted:
    `∑ k with (mb k, mn k) = (b, n), vals k · emb b (ms k) h`.
  * `lnRow x γ β` — LayerNorm of one row of 768 numbers: mean and (biased) variance by sums divided by 768, then
    `(x - μ) · rsqrt(var + ε) · γ + β`.
  * `G` — `lnRow` of each pooled row.

  `Ranges` says that every integer input lies in the range of the axis it indexes; `Finite` that every float input is a real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Every integer input lies in the range of the axis it indexes (as unsigned values: a non-negative signed word below the
    extent). -/
structure Ranges (ids : (⟨2, ![32, 512]⟩ : Shape).Idx → BitVec 32) (mb mn ms : (⟨1, ![16384]⟩ : Shape).Idx → BitVec 32) : Prop where
  ids_lt : ∀ i, (ids i).toNat < 30522
  mb_lt : ∀ k, (mb k).toNat < 32
  mn_lt : ∀ k, (mn k).toNat < 256
  ms_lt : ∀ k, (ms k).toNat < 512

/-- Every float input is a real number. -/
structure Finite (vals : (⟨1, ![16384]⟩ : Shape).Idx → EReal) (tab : (⟨2, ![30522, 768]⟩ : Shape).Idx → EReal)
    (γ β : (⟨1, ![768]⟩ : Shape).Idx → EReal) : Prop where
  vals_real : ∀ k, ∃ r : ℝ, vals k = (r : EReal)
  tab_real : ∀ i, ∃ r : ℝ, tab i = (r : EReal)
  γ_real : ∀ h, ∃ r : ℝ, γ h = (r : EReal)
  β_real : ∀ h, ∃ r : ℝ, β h = (r : EReal)

/-- The table row a subword id names. -/
def rowOf (w : BitVec 32) : Fin 30522 := ⟨w.toNat % 30522, Nat.mod_lt _ (by decide)⟩

/-- The subword position a triple names. -/
def subOf (w : BitVec 32) : Fin 512 := ⟨w.toNat % 512, Nat.mod_lt _ (by decide)⟩

/-- The embedding of subword `s` of batch `b`, component `h`: the padding id gives zero. -/
def emb (ids : (⟨2, ![32, 512]⟩ : Shape).Idx → BitVec 32) (tab : (⟨2, ![30522, 768]⟩ : Shape).Idx → EReal)
    (b : Fin 32) (s : Fin 512) (h : Fin 768) : EReal :=
  if ids (ix2 b s) = 0#32 then 0 else tab (ix2 (rowOf (ids (ix2 b s))) h)

/-- Node `n` of batch `b`, component `h`: the weighted sum of the embeddings its triples name. -/
def pool (ids : (⟨2, ![32, 512]⟩ : Shape).Idx → BitVec 32) (mb mn ms : (⟨1, ![16384]⟩ : Shape).Idx → BitVec 32)
    (vals : (⟨1, ![16384]⟩ : Shape).Idx → EReal) (tab : (⟨2, ![30522, 768]⟩ : Shape).Idx → EReal)
    (b : Fin 32) (n : Fin 256) (h : Fin 768) : EReal :=
  ∑ k ∈ Finset.univ.filter (fun k : Fin 16384 => (mb (ix1 k)).toNat = b.val ∧ (mn (ix1 k)).toNat = n.val),
    vals (ix1 k) * emb ids tab b (subOf (ms (ix1 k))) h

/-- LayerNorm of one row: the mean and the variance are sums over the 768 components divided by the f32 constant 768,
    the shift under the reciprocal square root the f32 constant nearest 1e-12. -/
def lnRow (x γ β : Fin 768 → EReal) (h : Fin 768) : EReal :=
  let μ : EReal := Ideal.div (∑ k, x k) (Ideal.ofBits .f32 0x44400000#32)
  let var : EReal := Ideal.div (∑ k, (x k - μ) * (x k - μ)) (Ideal.ofBits .f32 0x44400000#32)
  ((x h - μ) * Ideal.rsqrt (var + Ideal.ofBits .f32 0x2B8CBCCC#32)) * γ h + β h

/-- The result at `(b, n, h)`. -/
def Gat (ids : (⟨2, ![32, 512]⟩ : Shape).Idx → BitVec 32) (mb mn ms : (⟨1, ![16384]⟩ : Shape).Idx → BitVec 32)
    (vals : (⟨1, ![16384]⟩ : Shape).Idx → EReal) (tab : (⟨2, ![30522, 768]⟩ : Shape).Idx → EReal)
    (γ β : (⟨1, ![768]⟩ : Shape).Idx → EReal) (b : Fin 32) (n : Fin 256) (h : Fin 768) : EReal :=
  lnRow (fun h' => pool ids mb mn ms vals tab b n h') (fun h' => γ (ix1 h')) (fun h' => β (ix1 h')) h

/-- The result array. -/
def G (ids : (⟨2, ![32, 512]⟩ : Shape).Idx → BitVec 32) (mb mn ms : (⟨1, ![16384]⟩ : Shape).Idx → BitVec 32)
    (vals : (⟨1, ![16384]⟩ : Shape).Idx → EReal) (tab : (⟨2, ![30522, 768]⟩ : Shape).Idx → EReal)
    (γ β : (⟨1, ![768]⟩ : Shape).Idx → EReal) : (⟨3, ![32, 256, 768]⟩ : Shape).Idx → EReal :=
  fun i => Gat ids mb mn ms vals tab γ β (i 0) (i 1) (i 2)

theorem G_ix3 (ids : (⟨2, ![32, 512]⟩ : Shape).Idx → BitVec 32) (mb mn ms : (⟨1, ![16384]⟩ : Shape).Idx → BitVec 32)
    (vals : (⟨1, ![16384]⟩ : Shape).Idx → EReal) (tab : (⟨2, ![30522, 768]⟩ : Shape).Idx → EReal)
    (γ β : (⟨1, ![768]⟩ : Shape).Idx → EReal) (b : Fin 32) (n : Fin 256) (h : Fin 768) :
    G ids mb mn ms vals tab γ β (ix3 b n h) = Gat ids mb mn ms vals tab γ β b n h := rfl

end Cert.Spec

end
-- ==== Proof.KIPayload.lean ====
/-
  The kernel body's value, read at one entry of its `[4, 256, 768]` block.

  The body multiplies, batch by batch, the `[4, 256, 512]` block `A` (node × subword weights) with the `[4, 512, 768]`
  block `B` (subword embeddings) into a zero block, so that entry `(p, n, h)` of the product is
  `∑ s, A[p, n, s] · B[p, s, h]`; it then normalises each row `(p, n)` of the product over its 768 components — the
  mean and the variance are lane sums divided by the constant 768, the deviation is multiplied by the reciprocal square
  root of the variance plus a small constant — and multiplies by the scale row and adds the shift row, both `[1, 768]`
  rows broadcast over the block. Over the extended reals every one of these operations is the exact one and a change of
  float format is the identity, so the entry `(p, n, h)` is `Cert.Spec.lnRow` of the product's row `(p, n)`.
-/
import proofs.«413540_j35467839930966_2_alg».proof.Proof.Gen.KernelIdeal.Skeleton
import proofs.«413540_j35467839930966_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

namespace Payload

/-! ## The batched product's operand indices, axis by axis

The product has batch axis 0 on both operands, contracts axis 2 of the left operand with axis 1 of the right one, and
keeps axis 1 of the left and axis 2 of the right. So at result index `i = (p, n, h)` and contraction index `q` the left
operand is read at `(p, n, q)` and the right one at `(p, q, h)`. -/

/-- The left operand's batch coordinate is the result's. -/
theorem lhs_0 (i : S4x256x768.Idx) (q : dot_S4x256x512_S4x512x768_S4x256x768_2_1_1_2_0_0.contr.Idx) :
    (dot_S4x256x512_S4x512x768_S4x256x768_2_1_1_2_0_0.lhsIdx i q 0).val = (i 0).val := by
  unfold DotDims.lhsIdx
  rw [dif_pos (show (0 : Fin S4x256x512.rank) ∈ dot_S4x256x512_S4x512x768_S4x256x768_2_1_1_2_0_0.lhsBatch by decide)]
  rfl

/-- The left operand's row coordinate is the result's. -/
theorem lhs_1 (i : S4x256x768.Idx) (q : dot_S4x256x512_S4x512x768_S4x256x768_2_1_1_2_0_0.contr.Idx) :
    (dot_S4x256x512_S4x512x768_S4x256x768_2_1_1_2_0_0.lhsIdx i q 1).val = (i 1).val := by
  unfold DotDims.lhsIdx
  rw [dif_neg (show ¬(1 : Fin S4x256x512.rank) ∈ dot_S4x256x512_S4x512x768_S4x256x768_2_1_1_2_0_0.lhsBatch by decide),
    dif_pos (show (1 : Fin S4x256x512.rank) ∈ dot_S4x256x512_S4x512x768_S4x256x768_2_1_1_2_0_0.lhsNonContracting by decide)]
  rfl

/-- The left operand's last coordinate is the contraction index's one coordinate. -/
theorem lhs_2 (i : S4x256x768.Idx) (q : dot_S4x256x512_S4x512x768_S4x256x768_2_1_1_2_0_0.contr.Idx) :
    (dot_S4x256x512_S4x512x768_S4x256x768_2_1_1_2_0_0.lhsIdx i q 2).val = (q ⟨0, by decide⟩).val :=
  dot_S4x256x512_S4x512x768_S4x256x768_2_1_1_2_0_0.lhsIdx_val_of_single rfl i q

/-- The right operand's batch coordinate is the result's. -/
theorem rhs_0 (i : S4x256x768.Idx) (q : dot_S4x256x512_S4x512x768_S4x256x768_2_1_1_2_0_0.contr.Idx) :
    (dot_S4x256x512_S4x512x768_S4x256x768_2_1_1_2_0_0.rhsIdx i q 0).val = (i 0).val := by
  unfold DotDims.rhsIdx
  rw [dif_pos (show (0 : Fin S4x512x768.rank) ∈ dot_S4x256x512_S4x512x768_S4x256x768_2_1_1_2_0_0.rhsBatch by decide)]
  rfl

/-- The right operand's middle coordinate is the contraction index's one coordinate. -/
theorem rhs_1 (i : S4x256x768.Idx) (q : dot_S4x256x512_S4x512x768_S4x256x768_2_1_1_2_0_0.contr.Idx) :
    (dot_S4x256x512_S4x512x768_S4x256x768_2_1_1_2_0_0.rhsIdx i q 1).val = (q ⟨0, by decide⟩).val :=
  dot_S4x256x512_S4x512x768_S4x256x768_2_1_1_2_0_0.rhsIdx_val_of_single rfl i q

/-- The right operand's column coordinate is the result's. -/
theorem rhs_2 (i : S4x256x768.Idx) (q : dot_S4x256x512_S4x512x768_S4x256x768_2_1_1_2_0_0.contr.Idx) :
    (dot_S4x256x512_S4x512x768_S4x256x768_2_1_1_2_0_0.rhsIdx i q 2).val = (i 2).val := by
  unfold DotDims.rhsIdx
  rw [dif_neg (show ¬(2 : Fin S4x512x768.rank) ∈ dot_S4x256x512_S4x512x768_S4x256x768_2_1_1_2_0_0.rhsBatch by decide),
    dif_pos (show (2 : Fin S4x512x768.rank) ∈ dot_S4x256x512_S4x512x768_S4x256x768_2_1_1_2_0_0.rhsNonContracting by decide)]
  rfl

/-- The batched product into the zero block, at `(p, n, h)`: the sum over the subword position `s` of
    `A[p, n, s] · B[p, s, h]`. -/
theorem mm_apply (A : FVec Ideal S4x256x512 .bf16) (B : FVec Ideal S4x512x768 .bf16) (p : Fin 4) (n : Fin 256) (h : Fin 768) :
    matmul dot_S4x256x512_S4x512x768_S4x256x768_2_1_1_2_0_0 none A B (constant (F := Ideal) S4x256x768 .f32 0x00000000#32) (ix3 p n h)
      = ∑ s : Fin 512, A (ix3 p n s) * B (ix3 p s h) := by
  simp only [matmul]
  rw [Ideal.matmul_constant_zero_apply,
    ← Equiv.sum_comp (contrEquiv1 dot_S4x256x512_S4x512x768_S4x256x768_2_1_1_2_0_0 512 rfl rfl).symm]
  refine Finset.sum_congr rfl fun k _ => ?_
  have hk := contrEquiv1_symm_val dot_S4x256x512_S4x512x768_S4x256x768_2_1_1_2_0_0 512 rfl rfl k
  have el : dot_S4x256x512_S4x512x768_S4x256x768_2_1_1_2_0_0.lhsIdx (ix3 p n h)
      ((contrEquiv1 dot_S4x256x512_S4x512x768_S4x256x768_2_1_1_2_0_0 512 rfl rfl).symm k) = ix3 p n k :=
    funext fun a => Fin.ext (by
      match a with
      | ⟨0, _⟩ => exact lhs_0 _ _
      | ⟨1, _⟩ => exact lhs_1 _ _
      | ⟨2, _⟩ => exact (lhs_2 _ _).trans hk)
  have er : dot_S4x256x512_S4x512x768_S4x256x768_2_1_1_2_0_0.rhsIdx (ix3 p n h)
      ((contrEquiv1 dot_S4x256x512_S4x512x768_S4x256x768_2_1_1_2_0_0 512 rfl rfl).symm k) = ix3 p k h :=
    funext fun a => Fin.ext (by
      match a with
      | ⟨0, _⟩ => exact rhs_0 _ _
      | ⟨1, _⟩ => exact (rhs_1 _ _).trans hk
      | ⟨2, _⟩ => exact rhs_2 _ _)
  rw [el, er]

/-! ## The row operations of the normalisation, each at an index -/

variable {α : Type}

/-- A lane sum of a `[4, 256, 768]` block at row `(p, n)`: the sum over the 768 components of that row. -/
theorem rowSum_apply (v : FVec Ideal S4x256x768 .f32) (hφ : FTy.f32 = FTy.f32 ∨ FTy.f32 = FTy.bf16)
    (hacc : (0x00000000#32 : BitVec 32) = 0x00000000#32) (p : Fin 4) (n : Fin 256) :
    multiReduction .add ([2] : List (Fin 3)) S4x256 v 0x00000000#32 reduces_S4x256x768_S4x256 hφ hacc (ix2 p n)
      = ∑ k : Fin 768, v (ix3 p n k) := by
  refine (Ideal.multiReduction_add_single v 0x00000000#32 reduces_S4x256x768_S4x256 hφ hacc (ix2 p n)).trans ?_
  refine Finset.sum_congr rfl fun k _ => congrArg v ?_
  funext a
  match a with
  | ⟨0, _⟩ => rfl
  | ⟨1, _⟩ => rfl
  | ⟨2, _⟩ => rfl

/-- A `[4, 256]` array viewed `[4, 256, 1]` reads, at `(p, n, u)`, the operand at `(p, n)`: both have row-major
    position `p · 256 + n`. -/
theorem keep_apply (v : S4x256.Idx → α) (p : Fin 4) (n : Fin 256) (u : Fin 1) :
    shapeCast S4x256x1 v shapeCasts_S4x256_S4x256x1 (ix3 p n u) = v (ix2 p n) :=
  shapeCast_apply v _ _ _ (by
    have hu : u.val = 0 := by omega
    rw [Shape.rowMajor_val_three, Shape.rowMajor_val_two]
    show p.val * 256 + n.val = (p.val * 256 + n.val) * 1 + u.val
    rw [hu, Nat.mul_one, Nat.add_zero])

/-- A `[4, 256, 1]` column broadcast along the last axis reads, at `(p, n, h)`, the column's entry `(p, n, 0)`. -/
theorem col_apply (v : S4x256x1.Idx → α) (p : Fin 4) (n : Fin 256) (h : Fin 768) :
    broadcastTo S4x256x768 v broadcasts_S4x256x1_S4x256x768 (ix3 p n h) = v (ix3 p n (0 : Fin 1)) := by
  refine broadcastTo_apply v _ (ix3 p n h) (ix3 p n (0 : Fin 1)) fun ax => ?_
  match ax with
  | ⟨0, _⟩ => rfl
  | ⟨1, _⟩ => rfl
  | ⟨2, _⟩ => rfl

/-- A `[1, 768]` row viewed `[1, 1, 768]` and broadcast over the block reads, at `(p, n, h)`, the row at `(0, h)`. -/
theorem row_apply (v : S1x768.Idx → α) (p : Fin 4) (n : Fin 256) (h : Fin 768) :
    broadcastTo S4x256x768 (shapeCast S1x1x768 (shapeCast S1x768 v shapeCasts_S1x768_S1x768) shapeCasts_S1x768_S1x1x768)
        broadcasts_S1x1x768_S4x256x768 (ix3 p n h) = v (ix2 (0 : Fin 1) h) := by
  rw [shapeCast_self]
  refine (broadcastTo_apply _ _ (ix3 p n h) (ix3 (0 : Fin 1) (0 : Fin 1) h) fun ax => ?_).trans
    (shapeCast_ab_1ab_apply v _ _ _ _)
  match ax with
  | ⟨0, _⟩ => rfl
  | ⟨1, _⟩ => rfl
  | ⟨2, _⟩ => rfl

/-- A reciprocal square root of a block, at an index, is that of the entry. -/
theorem rsqrt_apply {s : Shape} {φ : FTy} (v : FVec Ideal s φ) (i : s.Idx) : rsqrt v i = Ideal.rsqrt (v i) := rfl

end Payload

open Payload

/-- The kernel body's value at block index `(p, n, h)`: the LayerNorm, over the 768 components, of row `(p, n)` of the
    batched product `∑ s, x0[p, n, s] · x1[p, s, ·]`, times the scale row `x2[0, ·]` plus the shift row `x3[0, ·]`. -/
theorem pay_apply (x0 : Vec Ideal S4x256x512 .f32) (x1 : Vec Ideal S4x512x768 .bf16) (x2 x3 : Vec Ideal S1x768 .f32)
    (p : Fin 4) (n : Fin 256) (h : Fin 768) :
    k0_pay1 (F := Ideal) x0 x1 x2 x3 (ix3 p n h)
      = Cert.Spec.lnRow (fun h' => ∑ s : Fin 512, x0 (ix3 p n s) * x1 (ix3 p s h'))
          (fun h' => x2 (ix2 0 h')) (fun h' => x3 (ix2 0 h')) h := by
  unfold k0_pay1
  -- the two casts of a block to its own shape are the identity
  rw [shapeCast_self, shapeCast_self]
  -- name the product block; its row (p, n) is the row of sums the specification normalises
  generalize hM : matmul (F := Ideal) dot_S4x256x512_S4x512x768_S4x256x768_2_1_1_2_0_0 none _ _ _ = M
  have hx : (fun h' => ∑ s : Fin 512, x0 (ix3 p n s) * x1 (ix3 p s h')) = fun h' => M (ix3 p n h') := by
    funext h'
    rw [← hM, mm_apply]
    rfl
  rw [hx]
  -- every remaining operation is pointwise, a lane sum, or a broadcast of a column or of a row
  simp only [addf_apply, mulf_apply, subf_apply, divf_apply, rsqrt_apply, col_apply, row_apply, keep_apply, rowSum_apply,
    broadcast_apply, Cert.Spec.lnRow]
  rfl

end Cert.KernelIdeal.Hand

end
-- ==== Proof.KIValue.lean ====
/-
  The kernel program's result array, as a value: after any weakly fair execution of @main over the extended reals, the
  result array holds, at index (b, n, h), the LayerNorm (scale and shift by the reshaped γ and β) of row (b, n) of the
  batched product of the dense pooling matrix with the masked embeddings — all four read as the arrays the region finds
  after the host operations. The eight argument arrays end as launched.

  The region's grid has 8 points; point t computes batches 4t .. 4t+3. Its output block is the payload of the four input
  blocks; an element of a block sits in its array, on each axis, at block index × block size + its coordinate inside the
  block, so reading each input block where the output block's index says gives block t of ONE function of the whole
  arrays, and the 8 output blocks tile the result array.
-/
import proofs.«413540_j35467839930966_2_alg».proof.Proof.KIFrame
import proofs.«413540_j35467839930966_2_alg».proof.Proof.KIPayload
import proofs.«413540_j35467839930966_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- the result array after the run, in terms of the arrays the region finds -/
def Kout (c : Dev nD) : S32x256x768.Idx → EReal := fun i =>
  Cert.Spec.lnRow (fun h' => ∑ s : Fin 512, @HMul.hMul EReal EReal EReal _ (V m c main_v32 (ix3 (i 0) (i 1) s)) (V m c main_v11 (ix3 (i 0) s h')))
    (fun h' => V m c main_v33 (ix2 0 h')) (fun h' => V m c main_v34 (ix2 0 h')) (i 2)

/-! ## Zero offsets, and the printed index maps over the grid -/

private theorem hz3 : (![0, 0, 0] : Fin 3 → Nat) = fun _ => 0 := funext fun a => by fin_cases a <;> rfl
private theorem hz2 : (![0, 0] : Fin 2 → Nat) = fun _ => 0 := funext fun a => by fin_cases a <;> rfl

/-- The printed index maps, decided over the 8 grid points: the pooling matrix's, the embeddings' and the result's blocks
    move with the point along the batch axis (block index t, 4 batches a block) and sit at block 0 on the other two axes;
    the scale's and the shift's one block is the whole row. -/
theorem win_index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## What each input block reads, index by index -/

/-- Block t of the pooling matrix at (p, n, s) is the matrix at batch 4 t + p. -/
theorem iblk0_apply (c : Dev nD) (t : Fin cfg0.N) (p : Fin 4) (n : Fin 256) (s : Fin 512) (q : Fin 32)
    (hq : q.val = 4 * t.val + p.val) :
    iblk (F := Ideal) m c 0 t (ix3 p n s) = V m c main_v32 (ix3 q n s) := by
  obtain ⟨e0, e1, e2, -⟩ := win_index_facts t
  show V m c main_v32 (((cfg0.win 0).blk t).view.emb (ix3 p n s)) = V m c main_v32 (ix3 q n s)
  refine congrArg _ (funext fun a => Fin.ext ?_)
  match a with
  | ⟨0, _⟩ => show win0_0.index t (0 : Fin 3) * 4 + 1 * p.val = q.val; omega
  | ⟨1, _⟩ => show win0_0.index t (1 : Fin 3) * 256 + 1 * n.val = n.val; omega
  | ⟨2, _⟩ => show win0_0.index t (2 : Fin 3) * 512 + 1 * s.val = s.val; omega

/-- Block t of the embeddings at (p, s, h) is the embeddings at batch 4 t + p. -/
theorem iblk1_apply (c : Dev nD) (t : Fin cfg0.N) (p : Fin 4) (s : Fin 512) (h : Fin 768) (q : Fin 32)
    (hq : q.val = 4 * t.val + p.val) :
    iblk (F := Ideal) m c 1 t (ix3 p s h) = V m c main_v11 (ix3 q s h) := by
  obtain ⟨-, -, -, e0, e1, e2, -⟩ := win_index_facts t
  show V m c main_v11 (((cfg0.win 1).blk t).view.emb (ix3 p s h)) = V m c main_v11 (ix3 q s h)
  refine congrArg _ (funext fun a => Fin.ext ?_)
  match a with
  | ⟨0, _⟩ => show win0_1.index t (0 : Fin 3) * 4 + 1 * p.val = q.val; omega
  | ⟨1, _⟩ => show win0_1.index t (1 : Fin 3) * 512 + 1 * s.val = s.val; omega
  | ⟨2, _⟩ => show win0_1.index t (2 : Fin 3) * 768 + 1 * h.val = h.val; omega

/-- The scale's block at any point is the whole row. -/
theorem iblk2_apply (c : Dev nD) (t : Fin cfg0.N) (h : Fin 768) :
    iblk (F := Ideal) m c 2 t (ix2 0 h) = V m c main_v33 (ix2 0 h) := by
  obtain ⟨-, -, -, -, -, -, e0, e1, -⟩ := win_index_facts t
  show V m c main_v33 (((cfg0.win 2).blk t).view.emb (ix2 0 h)) = V m c main_v33 (ix2 0 h)
  refine congrArg _ (funext fun a => Fin.ext ?_)
  match a with
  | ⟨0, _⟩ => show win0_2.index t (0 : Fin 2) * 1 + 1 * 0 = 0; omega
  | ⟨1, _⟩ => show win0_2.index t (1 : Fin 2) * 768 + 1 * h.val = h.val; omega

/-- The shift's block at any point is the whole row. -/
theorem iblk3_apply (c : Dev nD) (t : Fin cfg0.N) (h : Fin 768) :
    iblk (F := Ideal) m c 3 t (ix2 0 h) = V m c main_v34 (ix2 0 h) := by
  obtain ⟨-, -, -, -, -, -, -, -, e0, e1, -⟩ := win_index_facts t
  show V m c main_v34 (((cfg0.win 3).blk t).view.emb (ix2 0 h)) = V m c main_v34 (ix2 0 h)
  refine congrArg _ (funext fun a => Fin.ext ?_)
  match a with
  | ⟨0, _⟩ => show win0_3.index t (0 : Fin 2) * 1 + 1 * 0 = 0; omega
  | ⟨1, _⟩ => show win0_3.index t (1 : Fin 2) * 768 + 1 * h.val = h.val; omega

/-! ## One point -/

/-- The payload of four blocks that read whole arrays M, E, g, b at batch q (rows p of the blocks), at block index
    (p, n, h): the LayerNorm of row (q, n) of the batched product M · E, scaled by g and shifted by b. -/
theorem pay_of_blocks (M : Vec Ideal S32x256x512 .f32) (E : Vec Ideal S32x512x768 .bf16) (g b : Vec Ideal S1x768 .f32)
    (x0 : Vec Ideal S4x256x512 .f32) (x1 : Vec Ideal S4x512x768 .bf16) (x2 x3 : Vec Ideal S1x768 .f32)
    (q : Fin 32) (p : Fin 4) (n : Fin 256) (h : Fin 768)
    (h0 : ∀ s, x0 (ix3 p n s) = M (ix3 q n s)) (h1 : ∀ s h', x1 (ix3 p s h') = E (ix3 q s h'))
    (h2 : ∀ h', x2 (ix2 0 h') = g (ix2 0 h')) (h3 : ∀ h', x3 (ix2 0 h') = b (ix2 0 h')) :
    k0_pay1 (F := Ideal) x0 x1 x2 x3 (ix3 p n h)
      = Cert.Spec.lnRow (fun h' => ∑ s : Fin 512, M (ix3 q n s) * E (ix3 q s h')) (fun h' => g (ix2 0 h')) (fun h' => b (ix2 0 h')) h := by
  rw [pay_apply]
  simp only [h0, h1, h2, h3]

/-! ## What point t writes back -/

/-- Point t writes back block t of Kout. -/
theorem flushed4_eq (c : Dev nD) (t : Fin cfg0.N) :
    (dats (F := Ideal) m 0 c).flushed 4 t = ((cfg0.win 4).blk t).view.read (Elt Ideal) (Kout m c) := by
  show (cfg0.win 4).cut (grid0.coords t) ((dats m 0 c).after 4 t) = _
  rw [after0_4]
  unfold out0_4
  rw [View.canon_unit_zero hz3]
  simp only [View.ld_unit_zero (S := S4x256x512) hz3, View.ld_unit_zero (S := S4x512x768) hz3, View.ld_unit_zero (S := S1x768) hz2]
  funext j
  have hj0 : (j 0).val < 4 := (j 0).isLt
  have hj1 : (j 1).val < 256 := (j 1).isLt
  have hj2 : (j 2).val < 768 := (j 2).isLt
  have ht : t.val < 8 := t.isLt
  obtain ⟨-, -, -, -, -, -, -, -, -, -, e0, e1, e2⟩ := win_index_facts t
  have hinj : (cfg0.win 4).xinj (grid0.coords t) j = ix3 (⟨(j 0).val, hj0⟩ : Fin 4) (⟨(j 1).val, hj1⟩ : Fin 256) (⟨(j 2).val, hj2⟩ : Fin 768) := by
    funext a
    match a with
    | ⟨0, _⟩ => rfl
    | ⟨1, _⟩ => rfl
    | ⟨2, _⟩ => rfl
  have hemb : ((cfg0.win 4).blk t).view.emb j = ix3 (⟨4 * t.val + (j 0).val, by omega⟩ : Fin 32) (⟨(j 1).val, hj1⟩ : Fin 256) (⟨(j 2).val, hj2⟩ : Fin 768) := by
    funext a; apply Fin.ext
    match a with
    | ⟨0, _⟩ => show win0_4.index t (0 : Fin 3) * 4 + 1 * (j 0).val = 4 * t.val + (j 0).val; omega
    | ⟨1, _⟩ => show win0_4.index t (1 : Fin 3) * 256 + 1 * (j 1).val = (j 1).val; omega
    | ⟨2, _⟩ => show win0_4.index t (2 : Fin 3) * 768 + 1 * (j 2).val = (j 2).val; omega
  show k0_pay1 (F := Ideal) (iblk m c 0 t) (iblk m c 1 t) (iblk m c 2 t) (iblk m c 3 t) ((cfg0.win 4).xinj (grid0.coords t) j)
    = Kout m c (((cfg0.win 4).blk t).view.emb j)
  rw [hinj, hemb]
  exact pay_of_blocks (V m c main_v32) (V m c main_v11) (V m c main_v33) (V m c main_v34)
    (iblk m c 0 t) (iblk m c 1 t) (iblk m c 2 t) (iblk m c 3 t) ⟨4 * t.val + (j 0).val, by omega⟩ ⟨(j 0).val, hj0⟩ ⟨(j 1).val, hj1⟩ ⟨(j 2).val, hj2⟩
    (fun s => iblk0_apply m c t _ _ s _ rfl) (fun s h' => iblk1_apply m c t _ s h' _ rfl)
    (fun h' => iblk2_apply m c t h') (fun h' => iblk3_apply m c t h')

/-! ## The blocks tile the result array -/

/-- An index of the result array is in point t's block iff each coordinate is in the block's range on its axis. -/
theorem mem_blk4 (t : Fin cfg0.N) (i : S32x256x768.Idx) :
    i ∈ ((cfg0.win 4).blk t).view.set ↔ ∀ a : Fin 3, win0_4.index t a * S4x256x768.size a ≤ (i a).val ∧ (i a).val < win0_4.index t a * S4x256x768.size a + S4x256x768.size a := by
  show i ∈ ((View.whole main_v35).slice (win0_4.rect t)).set ↔ _
  rw [View.set_slice_whole, Rect.mem_set_unit]
  exact Iff.rfl

/-- Every index of the result array is in some point's block: batch b is computed at point b / 4. -/
theorem cover4 (i : S32x256x768.Idx) : ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 768 := (i 2).isLt
  let t : Fin cfg0.N := ⟨(i 0).val / 4, by show (i 0).val / 4 < grid0.N; rw [N_0]; omega⟩
  have htv : t.val = (i 0).val / 4 := rfl
  obtain ⟨-, -, -, -, -, -, -, -, -, -, e0, e1, e2⟩ := win_index_facts t
  refine ⟨t, flush0_4 t, ?_⟩
  rw [mem_blk4]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 768 ≤ (i 2).val ∧ (i 2).val < win0_4.index t (2 : Fin 3) * 768 + 768; omega

/-! ## The result array, and the run -/

/-- The result array after the run is Kout: every point writes back its block of Kout, and the blocks cover the array. -/
theorem final4 (c : Dev nD) : (dats (F := Ideal) m 0 c).arrAt 4 cfg0.N = Kout m c :=
  (dats m 0 c).arrAt_eq_of_cover 4 (Kout m c) (fun t _ => flushed4_eq m c t) cover4

/-- Every weakly fair execution of @main terminates with the result array at Kout of the arrays the region finds and the
    eight argument arrays as launched (no window stages an argument array, and no host operation writes one). -/
theorem run_V : θ_run defs (onTc (τ := τ) (main (F := Ideal))) ⟨m, fun _ => 0, ρ⟩ fun r => ∀ c : Dev nD,
      r.2.mem ((c.tc : Thread nD τ).loc main_v35) = Kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Hand

end
-- ==== Proof.KIHostScatter.lean ====
/-
  The pooling matrix the kernel program's host operations build, read at an index, over the extended reals.

  The host operations scatter-add the weights `vals k` into a zero array of shape [32, 256, 512] at the positions
  `(mb k, mn k, ms k)` the COO triples name. So the entry at `(b, n, s)` is the sum of the weights of the triples that
  name `(b, n, s)`. When every triple's coordinates lie in the range of their axis, the index normalisation
  `x < 0 ? x + extent : x` is the identity and every triple lands inside the array.
-/
import proofs.«413540_j35467839930966_2_alg».proof.Proof.KIFrame
import proofs.«413540_j35467839930966_2_alg».proof.Proof.Spec
import Idealize.ShloMosaic.Lib.StableHlo.Run
import Idealize.ShloMosaic.Lib.StableHlo.Predicate
import Idealize.ShloMosaic.Lib.ValueIdx
import Idealize.ShloMosaic.PureOps.Ideal.Laws
import Idealize.ShloMosaic.Lib.Pipeline.Value
import Idealize.ShloMosaic.Lib.ValueIdxRank1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable (m : (ℓ : Loc nD τ sig) → Buf (Elt Ideal) ℓ)

namespace HostScatter

/-- One coordinate column with the index normalisation applied: a word that is negative as a signed number has the
    axis's extent `N` added to it, any other word is kept. -/
def normCol (N : BitVec 32) (x : IVec S16384 32) : IVec S16384 32 :=
  select (cmpi .slt x (broadcastInDim S16384 ![] bcast_S_S16384 (constantI S_ 32 0#32)))
    (addi x (broadcastInDim S16384 ![] bcast_S_S16384 (constantI S_ 32 N))) x

/-- The [16384, 3] array of scatter indices: row `k` is the normalised triple `(mb k, mn k, ms k)`. -/
def idxArr (mb mn ms : IVec S16384 32) : IVec S16384x3 32 :=
  concatenate S16384x3 1
    [⟨S16384x1, broadcastInDim S16384x1 ![0] bcast_S16384_S16384x1_0 (normCol 32#32 mb)⟩,
     ⟨S16384x1, broadcastInDim S16384x1 ![0] bcast_S16384_S16384x1_0 (normCol 256#32 mn)⟩,
     ⟨S16384x1, broadcastInDim S16384x1 ![0] bcast_S16384_S16384x1_0 (normCol 512#32 ms)⟩]
    concatenates_S16384x1_S16384x1_S16384x1_S16384x3_d1

/-- The zero array the weights are added into. -/
def zeros : FVec Ideal S32x256x512 .f32 :=
  broadcastInDim S32x256x512 ![] bcast_S_S32x256x512 (constant (F := Ideal) S_ .f32 0x00000000#32)

/-! ## A three-operand operation's result -/

section Nary3
open Idealize.ShloMosaic.StableHlo
variable {τ' : Topo} {sig' : RefSig} {Val : EltTy → Type} {x a b y : Ref sig' .tc}

/-- A three-operand operation's result at its own reference, each operand's contents read at its own reference. -/
theorem nary3_result
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig' .tc) k).ty.Contents Val) → y.ty.Contents Val) (hxs hy)
    (F : Valuation τ' sig' Val) :
    (nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

/-! ## The pooling matrix as the host operations' term -/

open Idealize.ShloMosaic.StableHlo in
set_option maxHeartbeats 2000000 in
/-- The pooling matrix is the scatter-add of the weights into the zero array at the normalised triples. -/
theorem V_v32_term (c : Dev nD) :
    (V m c main_v32 : S32x256x512.Idx → EReal)
      = Host.scatterAdd (F := Ideal) scatter_S32x256x512_S16384x3_S16384_n_012_012_1 zeros
          (idxArr (m ((c : Thread nD τ).loc main_arg1)) (m ((c : Thread nD τ).loc main_arg2)) (m ((c : Thread nD τ).loc main_arg3)))
          (m ((c : Thread nD τ).loc main_arg4)) := by
  dsimp only [V]
  simp only [hostOps0, hostOps0_1, hostOps0_2, List.flatten_cons, List.flatten_nil, List.append_nil, List.cons_append, List.nil_append]
  simp (disch := decide) only [after_cons, after_nil,
      nullary_result', unary_result', binary_result', ternary_result', quaternary_result', reshape_result', nary3_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

/-! ## The scatter's result index -/

/-- An update lands at `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hh
      have e := Option.some.inj h
      rw [← e]
      show _ = (((d.start j idx a + (d.window j a : Int)).toNat : Nat) : Int)
      rw [Int.toNat_of_nonneg (hh a).1]
    · exact absurd h (by simp)
  · intro hall
    have hh : ∀ a, 0 ≤ d.start j idx a + (d.window j a : Int) ∧ d.start j idx a + (d.window j a : Int) < s.size a := fun a => by
      rw [hall a]; exact ⟨Int.natCast_nonneg _, by exact_mod_cast (i a).isLt⟩
    rw [dif_pos hh]
    congr 1
    funext a
    apply Fin.ext
    show (d.start j idx a + (d.window j a : Int)).toNat = (i a).val
    rw [hall a]; exact Int.toNat_natCast _

/-- The scatter of the pooling matrix: every operand axis is an inserted window axis, and component `a` of a row of
    the index array is the start on operand axis `a`. -/
abbrev dS : ScatterDims S32x256x512 S16384x3 S16384 := scatter_S32x256x512_S16384x3_S16384_n_012_012_1

/-- No operand axis carries a window coordinate. -/
theorem dS_window (j : S16384.Idx) (a : Fin S32x256x512.rank) : dS.window j a = 0 := by
  unfold ScatterDims.window
  exact dif_neg ((by decide : ∀ a : Fin S32x256x512.rank, a ∉ dS.sKept) a)

/-- The start on the batch axis is the first component of the triple, read signed. -/
theorem dS_start0 (k : Fin 16384) (idx : IVec S16384x3 32) : dS.start (ix1 k) idx 0 = (idx (ix2 k (0 : Fin 3))).toInt := by
  unfold ScatterDims.start
  rw [dif_pos (show (0 : Fin S32x256x512.rank) ∈ dS.scatterDimsToOperandDims from by decide)]
  have hsi : dS.siIdx (ix1 k) ⟨List.idxOf (0 : Fin S32x256x512.rank) dS.scatterDimsToOperandDims,
      List.idxOf_lt_length_iff.2 (by decide)⟩ = ix2 k (0 : Fin 3) := by
    funext b; refine Fin.ext ?_
    match b with
    | ⟨0, _⟩ => rfl
    | ⟨1, _⟩ => rfl
  rw [hsi]

/-- The start on the node axis is the second component of the triple, read signed. -/
theorem dS_start1 (k : Fin 16384) (idx : IVec S16384x3 32) : dS.start (ix1 k) idx 1 = (idx (ix2 k (1 : Fin 3))).toInt := by
  unfold ScatterDims.start
  rw [dif_pos (show (1 : Fin S32x256x512.rank) ∈ dS.scatterDimsToOperandDims from by decide)]
  have hsi : dS.siIdx (ix1 k) ⟨List.idxOf (1 : Fin S32x256x512.rank) dS.scatterDimsToOperandDims,
      List.idxOf_lt_length_iff.2 (by decide)⟩ = ix2 k (1 : Fin 3) := by
    funext b; refine Fin.ext ?_
    match b with
    | ⟨0, _⟩ => rfl
    | ⟨1, _⟩ => rfl
  rw [hsi]

/-- The start on the subword axis is the third component of the triple, read signed. -/
theorem dS_start2 (k : Fin 16384) (idx : IVec S16384x3 32) : dS.start (ix1 k) idx 2 = (idx (ix2 k (2 : Fin 3))).toInt := by
  unfold ScatterDims.start
  rw [dif_pos (show (2 : Fin S32x256x512.rank) ∈ dS.scatterDimsToOperandDims from by decide)]
  have hsi : dS.siIdx (ix1 k) ⟨List.idxOf (2 : Fin S32x256x512.rank) dS.scatterDimsToOperandDims,
      List.idxOf_lt_length_iff.2 (by decide)⟩ = ix2 k (2 : Fin 3) := by
    funext b; refine Fin.ext ?_
    match b with
    | ⟨0, _⟩ => rfl
    | ⟨1, _⟩ => rfl
  rw [hsi]

/-- Triple `k` lands at `(b, n, s)` exactly when its three components, read signed, are `b`, `n`, `s`. -/
theorem dS_resultIdx_iff (idx : IVec S16384x3 32) (k : Fin 16384) (b : Fin 32) (n : Fin 256) (s : Fin 512) :
    dS.resultIdx? (ix1 k) idx = some (ix3 b n s) ↔
      (idx (ix2 k (0 : Fin 3))).toInt = (b.val : Int) ∧ (idx (ix2 k (1 : Fin 3))).toInt = (n.val : Int)
        ∧ (idx (ix2 k (2 : Fin 3))).toInt = (s.val : Int) := by
  rw [resultIdx?_eq_some_iff]
  constructor
  · intro h
    refine ⟨?_, ?_, ?_⟩
    · have h0 := h 0
      rw [dS_start0, dS_window, Nat.cast_zero, add_zero] at h0
      exact h0
    · have h1 := h 1
      rw [dS_start1, dS_window, Nat.cast_zero, add_zero] at h1
      exact h1
    · have h2 := h 2
      rw [dS_start2, dS_window, Nat.cast_zero, add_zero] at h2
      exact h2
  · rintro ⟨h0, h1, h2⟩ a
    match a with
    | ⟨0, _⟩ =>
      show dS.start (ix1 k) idx 0 + (dS.window (ix1 k) 0 : Int) = _
      rw [dS_start0, dS_window, Nat.cast_zero, add_zero]; exact h0
    | ⟨1, _⟩ =>
      show dS.start (ix1 k) idx 1 + (dS.window (ix1 k) 1 : Int) = _
      rw [dS_start1, dS_window, Nat.cast_zero, add_zero]; exact h1
    | ⟨2, _⟩ =>
      show dS.start (ix1 k) idx 2 + (dS.window (ix1 k) 2 : Int) = _
      rw [dS_start2, dS_window, Nat.cast_zero, add_zero]; exact h2

/-! ## The index array read at a row and a column -/

/-- A column `[16384] → [16384, 1]` read at row `k`. -/
theorem col_apply (v : IVec S16384 32) (k : Fin 16384) :
    broadcastInDim S16384x1 ![0] bcast_S16384_S16384x1_0 v (ix2 k (0 : Fin 1)) = v (ix1 k) := by
  refine (Idealize.ShloMosaic.broadcastInDim_apply _ _ v (ix2 k (0 : Fin 1)) (ix1 k) ?_)
  intro a
  match a with
  | ⟨0, _⟩ => rfl

/-- Under the range hypothesis (a word below 2³¹ is non-negative as a signed number) the normalisation keeps the word. -/
theorem normCol_apply (N : BitVec 32) (x : IVec S16384 32) (k : Fin 16384) (h : (x (ix1 k)).toNat < 2 ^ 31) :
    normCol N x (ix1 k) = x (ix1 k) := by
  unfold normCol
  rw [select_apply]
  have hc : ¬ IntOp.cmpi .slt (x (ix1 k)) 0#32 = 1#1 := by
    rw [StableHlo.Predicate.slt_iff_toNat h (by decide)]
    exact Nat.not_lt_zero _
  unfold Scalar.select
  exact if_neg hc

/-- The three columns the index array is made of. -/
abbrev idxPieces (mb mn ms : IVec S16384 32) : List ((s : Shape) × (s.Idx → BitVec 32)) :=
  [⟨S16384x1, broadcastInDim S16384x1 ![0] bcast_S16384_S16384x1_0 (normCol 32#32 mb)⟩,
   ⟨S16384x1, broadcastInDim S16384x1 ![0] bcast_S16384_S16384x1_0 (normCol 256#32 mn)⟩,
   ⟨S16384x1, broadcastInDim S16384x1 ![0] bcast_S16384_S16384x1_0 (normCol 512#32 ms)⟩]

/-- Column 0 of row `k` of the index array: the normalised batch word. -/
theorem idxArr_apply0 (mb mn ms : IVec S16384 32) (k : Fin 16384) :
    idxArr mb mn ms (ix2 k (0 : Fin 3)) = normCol 32#32 mb (ix1 k) := by
  unfold idxArr
  refine (Idealize.ShloMosaic.concatenate_apply_piece (1 : Fin S16384x3.rank) (idxPieces mb mn ms) concatenates_S16384x1_S16384x1_S16384x1_S16384x3_d1
    (ix2 k (0 : Fin 3)) 0 (by show 0 < 3; omega) S16384x1 _ rfl rfl 0 rfl (ix2 k (0 : Fin 1)) ?_ ?_).trans (col_apply _ k)
  · intro b hb
    match b with
    | ⟨0, _⟩ => rfl
    | ⟨1, _⟩ => exact absurd rfl hb
  · rfl

/-- Column 1 of row `k` of the index array: the normalised node word. -/
theorem idxArr_apply1 (mb mn ms : IVec S16384 32) (k : Fin 16384) :
    idxArr mb mn ms (ix2 k (1 : Fin 3)) = normCol 256#32 mn (ix1 k) := by
  unfold idxArr
  refine (Idealize.ShloMosaic.concatenate_apply_piece (1 : Fin S16384x3.rank) (idxPieces mb mn ms) concatenates_S16384x1_S16384x1_S16384x1_S16384x3_d1
    (ix2 k (1 : Fin 3)) 1 (by show 1 < 3; omega) S16384x1 _ rfl rfl 1 rfl (ix2 k (0 : Fin 1)) ?_ ?_).trans (col_apply _ k)
  · intro b hb
    match b with
    | ⟨0, _⟩ => rfl
    | ⟨1, _⟩ => exact absurd rfl hb
  · rfl

/-- Column 2 of row `k` of the index array: the normalised subword word. -/
theorem idxArr_apply2 (mb mn ms : IVec S16384 32) (k : Fin 16384) :
    idxArr mb mn ms (ix2 k (2 : Fin 3)) = normCol 512#32 ms (ix1 k) := by
  unfold idxArr
  refine (Idealize.ShloMosaic.concatenate_apply_piece (1 : Fin S16384x3.rank) (idxPieces mb mn ms) concatenates_S16384x1_S16384x1_S16384x1_S16384x3_d1
    (ix2 k (2 : Fin 3)) 2 (by show 2 < 3; omega) S16384x1 _ rfl rfl 2 rfl (ix2 k (0 : Fin 1)) ?_ ?_).trans (col_apply _ k)
  · intro b hb
    match b with
    | ⟨0, _⟩ => rfl
    | ⟨1, _⟩ => exact absurd rfl hb
  · rfl

/-! ## The scatter-add read at an index -/

/-- The zero array reads zero everywhere. -/
theorem zeros_apply (i : S32x256x512.Idx) : zeros i = (0 : EReal) := by
  show Ideal.ofBits .f32 0x00000000#32 = 0
  exact Ideal.ofBits_zero_f32

/-- With every triple in range, triple `k` lands at `(b, n, s)` exactly when its three words are `b`, `n`, `s`. -/
theorem lands_iff (mb mn ms : IVec S16384 32)
    (hb : ∀ k, (mb k).toNat < 32) (hn : ∀ k, (mn k).toNat < 256) (hs : ∀ k, (ms k).toNat < 512)
    (k : Fin 16384) (b : Fin 32) (n : Fin 256) (s : Fin 512) :
    dS.resultIdx? (ix1 k) (idxArr mb mn ms) = some (ix3 b n s)
      ↔ (mb (ix1 k)).toNat = b.val ∧ (mn (ix1 k)).toNat = n.val ∧ (ms (ix1 k)).toNat = s.val := by
  have hb' : (mb (ix1 k)).toNat < 2 ^ 31 := lt_trans (hb (ix1 k)) (by decide)
  have hn' : (mn (ix1 k)).toNat < 2 ^ 31 := lt_trans (hn (ix1 k)) (by decide)
  have hs' : (ms (ix1 k)).toNat < 2 ^ 31 := lt_trans (hs (ix1 k)) (by decide)
  rw [dS_resultIdx_iff, idxArr_apply0, idxArr_apply1, idxArr_apply2,
    normCol_apply _ mb k hb', normCol_apply _ mn k hn', normCol_apply _ ms k hs',
    StableHlo.Predicate.toInt_eq_toNat_of_lt hb', StableHlo.Predicate.toInt_eq_toNat_of_lt hn',
    StableHlo.Predicate.toInt_eq_toNat_of_lt hs', Nat.cast_inj, Nat.cast_inj, Nat.cast_inj]

/-- The scatter-add of the weights into the zero array, read at `(b, n, s)`: the sum of the weights of the triples
    whose words are `b`, `n`, `s`. -/
theorem scatterAdd_apply (mb mn ms : IVec S16384 32) (vals : S16384.Idx → EReal)
    (hb : ∀ k, (mb k).toNat < 32) (hn : ∀ k, (mn k).toNat < 256) (hs : ∀ k, (ms k).toNat < 512)
    (b : Fin 32) (n : Fin 256) (s : Fin 512) :
    Host.scatterAdd (F := Ideal) scatter_S32x256x512_S16384x3_S16384_n_012_012_1 zeros (idxArr mb mn ms) vals (ix3 b n s)
      = ∑ k ∈ Finset.univ.filter (fun k : Fin 16384 =>
          (mb (ix1 k)).toNat = b.val ∧ (mn (ix1 k)).toNat = n.val ∧ (ms (ix1 k)).toNat = s.val), vals (ix1 k) := by
  show Ideal.hostScatterAdd dS zeros (idxArr mb mn ms) vals (ix3 b n s) = _
  unfold Ideal.hostScatterAdd
  rw [zeros_apply, zero_add, Finset.sum_filter, Finset.sum_filter, ← Equiv.sum_comp (idxEquiv1 (n := 16384)).symm]
  refine Finset.sum_congr rfl fun k _ => ?_
  exact if_congr (lands_iff mb mn ms hb hn hs k b n s) rfl rfl

end HostScatter

/-! ## The pooling matrix at an index -/

open HostScatter in
/-- The pooling matrix at `(b, n, s)`: the sum of the weights of the triples that name `(b, n, s)`. -/
theorem V_v32_apply (c : Dev nD)
    (R : Cert.Spec.Ranges (m ((c : Thread nD τ).loc main_arg0)) (m ((c : Thread nD τ).loc main_arg1)) (m ((c : Thread nD τ).loc main_arg2)) (m ((c : Thread nD τ).loc main_arg3)))
    (b : Fin 32) (n : Fin 256) (s : Fin 512) :
    V m c main_v32 (ix3 b n s)
      = (∑ k ∈ Finset.univ.filter (fun k : Fin 16384 => ((m ((c : Thread nD τ).loc main_arg1)) (ix1 k)).toNat = b.val ∧ ((m ((c : Thread nD τ).loc main_arg2)) (ix1 k)).toNat = n.val ∧ ((m ((c : Thread nD τ).loc main_arg3)) (ix1 k)).toNat = s.val), (m ((c : Thread nD τ).loc main_arg4)) (ix1 k) : EReal) := by
  exact (congrFun (V_v32_term m c) (ix3 b n s)).trans
    (scatterAdd_apply _ _ _ _ R.mb_lt R.mn_lt R.ms_lt b n s)

end Cert.KernelIdeal.Hand

end
-- ==== Proof.KIHostGather.lean ====
/-
  What the kernel program's host operations leave in three of the arrays the region reads, index by index, over the extended
  reals: the embedding array (row `ids[b, s]` of the table, the padding id `0` giving the zero row), and the LayerNorm scale
  and shift reshaped from `[768]` to `[1, 768]`.
-/
import proofs.«413540_j35467839930966_2_alg».proof.Proof.KIFrame
import proofs.«413540_j35467839930966_2_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.StableHlo.Predicate (toInt_eq_toNat_of_lt slt_iff_toNat)

/-! ## The row gather read at an index -/

/-- The gather of table rows read at `(b, s, h)`: operand axis 0 is collapsed and start-indexed, so its coordinate is the
    start index `idx[b, s, 0]` read signed and clamped into `[0, 30521]`; operand axis 1 is the one offset axis, so its
    coordinate is the result's last coordinate `h`. -/
theorem gather_rows_apply {α : Type} {w : Nat} (x : S30522x768.Idx → α) (idx : IVec S32x512x1 w)
    (b : Fin 32) (s : Fin 512) (h : Fin 768) :
    Host.gather gather_S30522x768_S32x512x1_S32x512x768_2_0_n_n_0_2_1768 x idx (ix3 b s h)
      = x (ix2 ⟨min (idx (ix3 b s (0 : Fin 1))).toInt.toNat 30521, by omega⟩ h) := by
  unfold Host.gather
  congr 1
  funext a
  refine Fin.ext ?_
  match a with
  | ⟨0, _⟩ =>
    show gather_S30522x768_S32x512x1_S32x512x768_2_0_n_n_0_2_1768.start (ix3 b s h) idx 0
        + gather_S30522x768_S32x512x1_S32x512x768_2_0_n_n_0_2_1768.batchCoord (ix3 b s h) 0
        + gather_S30522x768_S32x512x1_S32x512x768_2_0_n_n_0_2_1768.offCoord (ix3 b s h) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ gather_S30522x768_S32x512x1_S32x512x768_2_0_n_n_0_2_1768.startIndexMap from
      List.mem_singleton.mpr rfl)]
    have hsi : gather_S30522x768_S32x512x1_S32x512x768_2_0_n_n_0_2_1768.siIdx (ix3 b s h)
        ⟨List.idxOf (0 : Fin 2) gather_S30522x768_S32x512x1_S32x512x768_2_0_n_n_0_2_1768.startIndexMap,
          List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S30522x768_S32x512x1_S32x512x768_2_0_n_n_0_2_1768.start (ix3 b s h) idx 1
        + gather_S30522x768_S32x512x1_S32x512x768_2_0_n_n_0_2_1768.batchCoord (ix3 b s h) 1
        + gather_S30522x768_S32x512x1_S32x512x768_2_0_n_n_0_2_1768.offCoord (ix3 b s h) 1 = _
    rw [GatherDims.batchCoord_eq_zero _ _ _ List.not_mem_nil]
    unfold GatherDims.start
    rw [dif_neg (show ¬ (1 : Fin 2) ∈ gather_S30522x768_S32x512x1_S32x512x768_2_0_n_n_0_2_1768.startIndexMap by decide)]
    simp only [Nat.add_zero, Nat.zero_add]
    rfl

/-- The same with the clamped start index named: the form that rewrites a goal whose start indices are still a composed term. -/
theorem gather_rows_at {α : Type} {w : Nat} (x : S30522x768.Idx → α) (idx : IVec S32x512x1 w)
    (b : Fin 32) (s : Fin 512) (h : Fin 768) (r : Fin 30522)
    (hr : r.val = min (idx (ix3 b s (0 : Fin 1))).toInt.toNat 30521) :
    Host.gather gather_S30522x768_S32x512x1_S32x512x768_2_0_n_n_0_2_1768 x idx (ix3 b s h) = x (ix2 r h) :=
  (gather_rows_apply x idx b s h).trans (congrArg (fun q : Fin 30522 => x (ix2 q h)) (Fin.ext hr.symm))

/-! ## The broadcasts read at an index -/

/-- A `[32, 512]` array laid as a `[32, 512, 1]` column reads, at `(b, s, u)`, the array at `(b, s)`. -/
theorem bcast_unit_apply {α : Type} (M : S32x512.Idx → α) (b : Fin 32) (s : Fin 512) (u : Fin 1) :
    broadcastInDim S32x512x1 ![0, 1] bcast_S32x512_S32x512x1_0_1 M (ix3 b s u) = M (ix2 b s) := by
  unfold broadcastInDim
  refine congrArg M (funext fun a => Fin.ext ?_)
  match a with
  | ⟨0, _⟩ => rfl
  | ⟨1, _⟩ => rfl

/-- A `[32, 512, 1]` column laid along the last axis of `[32, 512, 768]` reads, at `(b, s, h)`, the column at `(b, s, 0)`. -/
theorem bcast_last_apply {α : Type} (M : S32x512x1.Idx → α) (b : Fin 32) (s : Fin 512) (h : Fin 768) :
    broadcastInDim S32x512x768 ![0, 1, 2] bcast_S32x512x1_S32x512x768_0_1_2 M (ix3 b s h) = M (ix3 b s (0 : Fin 1)) := by
  unfold broadcastInDim
  refine congrArg M (funext fun a => Fin.ext ?_)
  match a with
  | ⟨0, _⟩ => rfl
  | ⟨1, _⟩ => rfl
  | ⟨2, _⟩ => rfl

/-! ## The embedding array -/

/-- The host operations that make the embedding array, as one function of the ids and the table: the ids normalised
    (`id + 30522` where `id < 0`), the table rows gathered at them, the rows of the padding id `0` replaced by zero, the
    result narrowed to bf16. -/
def maskedRows (ids : IVec S32x512 32) (tab : FVec Ideal S30522x768 .f32) : FVec Ideal S32x512x768 .bf16 :=
  truncf .bf16
    (select
      (broadcastInDim S32x512x768 ![0, 1, 2] bcast_S32x512x1_S32x512x768_0_1_2
        (broadcastInDim S32x512x1 ![0, 1] bcast_S32x512_S32x512x1_0_1
          (cmpi .ne ids (broadcastInDim S32x512 ![] bcast_S_S32x512 (constantI S_ 32 0#32)))))
      (Host.gather gather_S30522x768_S32x512x1_S32x512x768_2_0_n_n_0_2_1768 tab
        (broadcastInDim S32x512x1 ![0, 1] bcast_S32x512_S32x512x1_0_1
          (select (cmpi .slt ids (broadcastInDim S32x512 ![] bcast_S_S32x512 (constantI S_ 32 0#32)))
            (addi ids (broadcastInDim S32x512 ![] bcast_S_S32x512 (constantI S_ 32 30522#32))) ids)))
      (broadcastInDim S32x512x768 ![] bcast_S_S32x512x768 (constant (F := Ideal) S_ .f32 0x00000000#32)))
    bitsLt_bf16_f32

/-- Under the range hypothesis on the ids the masked rows at `(b, s, h)` are the specification's embedding: a
    non-negative id below 30522 is left as it is by the normalisation and by the gather's clamp, names the row
    `id mod 30522 = id`, and the mask `id ≠ 0` chooses between that row and zero. -/
theorem maskedRows_apply (ids : IVec S32x512 32) (tab : FVec Ideal S30522x768 .f32)
    (hids : ∀ i, (ids i).toNat < 30522) (b : Fin 32) (s : Fin 512) (h : Fin 768) :
    maskedRows ids tab (ix3 b s h) = Cert.Spec.emb ids tab b s h := by
  have hw := hids (ix2 b s)
  have hlt : ¬ IntOp.cmpi .slt (ids (ix2 b s)) 0#32 = 1#1 := fun h1 => by
    have := (slt_iff_toNat (by omega) (by decide)).mp h1
    exact absurd this (Nat.not_lt_zero _)
  have hrow : (Cert.Spec.rowOf (ids (ix2 b s))).val
      = min ((broadcastInDim S32x512x1 ![0, 1] bcast_S32x512_S32x512x1_0_1
          (select (cmpi .slt ids (broadcastInDim S32x512 ![] bcast_S_S32x512 (constantI S_ 32 0#32)))
            (addi ids (broadcastInDim S32x512 ![] bcast_S_S32x512 (constantI S_ 32 30522#32))) ids))
          (ix3 b s (0 : Fin 1))).toInt.toNat 30521 := by
    rw [bcast_unit_apply, select_apply]
    show (ids (ix2 b s)).toNat % 30522
      = min (Scalar.select (IntOp.cmpi .slt (ids (ix2 b s)) 0#32) (IntOp.addi (ids (ix2 b s)) 30522#32)
          (ids (ix2 b s))).toInt.toNat 30521
    rw [eq_zero_of_ne_one hlt, select_zero, toInt_eq_toNat_of_lt (by omega), Int.toNat_natCast, Nat.mod_eq_of_lt hw]
    omega
  unfold maskedRows
  rw [truncf_apply, select_apply, bcast_last_apply, bcast_unit_apply,
    gather_rows_at tab _ b s h (Cert.Spec.rowOf (ids (ix2 b s))) hrow]
  show Scalar.select (IntOp.cmpi .ne (ids (ix2 b s)) 0#32) (tab (ix2 (Cert.Spec.rowOf (ids (ix2 b s))) h))
      (Ideal.ofBits .f32 0x00000000#32) = _
  unfold Cert.Spec.emb
  by_cases h0 : ids (ix2 b s) = 0#32
  · rw [if_pos h0, h0]
    show Scalar.select 0#1 _ _ = _
    rw [select_zero, Ideal.ofBits_zero_f32]
  · rw [if_neg h0]
    have h1 : IntOp.cmpi .ne (ids (ix2 b s)) 0#32 = 1#1 := by
      simp only [IntOp.cmpi, StableHlo.Predicate.ofBool_eq_one_iff, bne_iff_ne, ne_eq]
      exact h0
    rw [h1, select_one]

variable (m : (ℓ : Loc nD τ sig) → Buf (Elt Ideal) ℓ)

set_option maxHeartbeats 1000000 in
/-- The embedding array the region reads is the masked rows of the launched ids and table. -/
theorem V_v11_eq (c : Dev nD) :
    (V m c main_v11 : S32x512x768.Idx → EReal)
      = maskedRows (m ((c : Thread nD τ).loc main_arg0)) (m ((c : Thread nD τ).loc main_arg5)) := by
  dsimp only [V]
  simp only [hostOps0, hostOps0_1, hostOps0_2, List.flatten_cons, List.flatten_nil, List.append_nil, List.cons_append,
    List.nil_append]
  after_results_simp
  rfl

/-- The embedding array the region reads, at `(b, s, h)`: component `h` of the table row `ids[b, s]` names, zero for the
    padding id. -/
theorem V_v11_apply (c : Dev nD)
    (R : Cert.Spec.Ranges (m ((c : Thread nD τ).loc main_arg0)) (m ((c : Thread nD τ).loc main_arg1))
      (m ((c : Thread nD τ).loc main_arg2)) (m ((c : Thread nD τ).loc main_arg3)))
    (b : Fin 32) (s : Fin 512) (h : Fin 768) :
    V m c main_v11 (ix3 b s h)
      = Cert.Spec.emb (m ((c : Thread nD τ).loc main_arg0)) (m ((c : Thread nD τ).loc main_arg5)) b s h :=
  (congrFun (V_v11_eq m c) (ix3 b s h)).trans (maskedRows_apply _ _ R.ids_lt b s h)

/-- The reshaped scale at `(0, h)` is the scale at `h`. -/
theorem V_v33_apply (c : Dev nD) (h : Fin 768) :
    V m c main_v33 (ix2 0 h) = (m ((c : Thread nD τ).loc main_arg6)) (ix1 h) := by
  have e : (V m c main_v33 : S1x768.Idx → EReal)
      = fun i => shapeCast S1x768 (m ((c : Thread nD τ).loc main_arg6) : S768.Idx → EReal) shapeCasts_S768_S1x768 i := by
    dsimp only [V]
    simp only [hostOps0, hostOps0_1, hostOps0_2, List.flatten_cons, List.flatten_nil, List.append_nil, List.cons_append,
      List.nil_append]
    after_results_simp
    rfl
  exact (congrFun e (ix2 0 h)).trans (shapeCast_a_1a_apply _ shapeCasts_S768_S1x768 0 h)

/-- The reshaped shift at `(0, h)` is the shift at `h`. -/
theorem V_v34_apply (c : Dev nD) (h : Fin 768) :
    V m c main_v34 (ix2 0 h) = (m ((c : Thread nD τ).loc main_arg7)) (ix1 h) := by
  have e : (V m c main_v34 : S1x768.Idx → EReal)
      = fun i => shapeCast S1x768 (m ((c : Thread nD τ).loc main_arg7) : S768.Idx → EReal) shapeCasts_S768_S1x768 i := by
    dsimp only [V]
    simp only [hostOps0, hostOps0_1, hostOps0_2, List.flatten_cons, List.flatten_nil, List.append_nil, List.cons_append,
      List.nil_append]
    after_results_simp
    rfl
  exact (congrFun e (ix2 0 h)).trans (shapeCast_a_1a_apply _ shapeCasts_S768_S1x768 0 h)

end Cert.KernelIdeal.Hand

end
-- ==== Proof.RefTerms.lean ====
/-
  The reference program's result as staged definitions: each stage is the literal composition of the functions of the
  printed operations, in the program's order, over the argument arrays.

    table   = the embedding table with row 0 overwritten by zeros
    sub     = table rows gathered at the (sign-normalised) flattened subword ids
    contrib = sub rows gathered at src = mb * 512 + ms (sign-normalised), each times its weight
    pooled  = contrib rows scatter-added at seg = mb * 256 + mn into zeros[8192, 768], read as [32, 256, 768]
    result  = LayerNorm over the last axis (mean and variance by sums divided by 768), times γ, plus β
-/
import proofs.«413540_j35467839930966_2_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- The table with row 0 set to zero: one update row of 768 zeros written at the single start index 0. -/
def Rtable (a5 : FVec F S30522x768 .f32) : FVec F S30522x768 .f32 :=
  Host.scatter scatter_S30522x768_S1_S768_0_0_0_0 (fun _ b => b) a5
    (broadcastInDim S1 ![] bcast_S_S1 (constantI S_ 32 0#32))
    (broadcastInDim S768 ![] bcast_S_S768 (constant (F := F) S_ .f32 0x00000000#32))

/-- The subword ids flattened to one axis of 16384 = 32 * 512, row-major. -/
def Rflat (a0 : IVec S32x512 32) : IVec S16384 32 :=
  shapeCast S16384 a0 shapeCasts_S32x512_S16384

/-- The flattened ids with a negative id shifted up by the table's height 30522 (the sign normalisation of an index). -/
def Rids (a0 : IVec S32x512 32) : IVec S16384 32 :=
  select (cmpi .slt (Rflat a0) (broadcastInDim S16384 ![] bcast_S_S16384 (constantI S_ 32 0#32)))
    (addi (Rflat a0) (broadcastInDim S16384 ![] bcast_S_S16384 (constantI S_ 32 30522#32)))
    (Rflat a0)

/-- The table rows the flattened ids name: row `k` is the (zeroed-row-0) table's row `ids k`. -/
def Rsub (a0 : IVec S32x512 32) (a5 : FVec F S30522x768 .f32) : FVec F S16384x768 .f32 :=
  Host.gather gather_S30522x768_S16384x1_S16384x768_1_0_n_n_0_1_1768 (Rtable a5)
    (broadcastInDim S16384x1 ![0] bcast_S16384_S16384x1_0 (Rids a0))

/-- The segment a triple adds into: `mb * 256 + mn`. -/
def Rseg (a1 a2 : IVec S16384 32) : IVec S16384 32 :=
  addi (muli a1 (broadcastInDim S16384 ![] bcast_S_S16384 (constantI S_ 32 256#32))) a2

/-- The flattened subword a triple reads: `mb * 512 + ms`. -/
def Rsrc0 (a1 a3 : IVec S16384 32) : IVec S16384 32 :=
  addi (muli a1 (broadcastInDim S16384 ![] bcast_S_S16384 (constantI S_ 32 512#32))) a3

/-- `Rsrc0` with a negative value shifted up by 16384 (the sign normalisation of an index). -/
def Rsrc (a1 a3 : IVec S16384 32) : IVec S16384 32 :=
  select (cmpi .slt (Rsrc0 a1 a3) (broadcastInDim S16384 ![] bcast_S_S16384 (constantI S_ 32 0#32)))
    (addi (Rsrc0 a1 a3) (broadcastInDim S16384 ![] bcast_S_S16384 (constantI S_ 32 16384#32)))
    (Rsrc0 a1 a3)

/-- Each triple's contribution: the gathered row at `src`, every component times the triple's weight. -/
def Rcontrib (a0 : IVec S32x512 32) (a1 a3 : IVec S16384 32) (a4 : FVec F S16384 .f32) (a5 : FVec F S30522x768 .f32) :
    FVec F S16384x768 .f32 :=
  mulf
    (Host.gather gather_S16384x768_S16384x1_S16384x768_1_0_n_n_0_1_1768 (Rsub a0 a5)
      (broadcastInDim S16384x1 ![0] bcast_S16384_S16384x1_0 (Rsrc a1 a3)))
    (broadcastInDim S16384x768 ![0, 1] bcast_S16384x1_S16384x768_0_1
      (broadcastInDim S16384x1 ![0] bcast_S16384_S16384x1_0 a4))

/-- The pooled rows before the final re-indexing: contributions scatter-added at their segments into zeros[8192, 768]. -/
def Rpooled2 (a0 : IVec S32x512 32) (a1 a2 a3 : IVec S16384 32) (a4 : FVec F S16384 .f32) (a5 : FVec F S30522x768 .f32) :
    FVec F S8192x768 .f32 :=
  Host.scatterAdd scatter_S8192x768_S16384x1_S16384x768_1_0_0_1
    (broadcastInDim S8192x768 ![] bcast_S_S8192x768 (constant (F := F) S_ .f32 0x00000000#32))
    (broadcastInDim S16384x1 ![0] bcast_S16384_S16384x1_0 (Rseg a1 a2))
    (Rcontrib a0 a1 a3 a4 a5)

/-- The pooled rows, read as [32, 256, 768] (segment `b * 256 + n` is node `n` of batch `b`). -/
def Rpooled (a0 : IVec S32x512 32) (a1 a2 a3 : IVec S16384 32) (a4 : FVec F S16384 .f32) (a5 : FVec F S30522x768 .f32) :
    FVec F S32x256x768 .f32 :=
  shapeCast S32x256x768 (Rpooled2 a0 a1 a2 a3 a4 a5) shapeCasts_S8192x768_S32x256x768

/-- The row means, kept as a last axis of extent 1: the sum over the 768 components divided by the constant 768. -/
def Rmean (p : FVec F S32x256x768 .f32) : FVec F S32x256x1 .f32 :=
  Host.divf
    (broadcastInDim S32x256x1 ![0, 1] bcast_S32x256_S32x256x1_0_1
      (Host.reduceAdd p (constant (F := F) S_ .f32 0x00000000#32) reducesTo_S32x256x768_S32x256_d2 h_S_))
    (broadcastInDim S32x256x1 ![] bcast_S_S32x256x1 (constant (F := F) S_ .f32 0x44400000#32))

/-- The variance function's divisor `768 - ddof` at `ddof = 0` (the integer 0 converted to a float). -/
def RvarDen : FVec F S_ .f32 :=
  subf (constant (F := F) S_ .f32 0x44400000#32) (sitofp .f32 (constantI S_ 32 0#32))

/-- The squared deviations from the row mean. -/
def Rsq (p : FVec F S32x256x768 .f32) : FVec F S32x256x768 .f32 :=
  mulf
    (subf p (broadcastInDim S32x256x768 ![0, 1, 2] bcast_S32x256x1_S32x256x768_0_1_2 (Rmean p)))
    (subf p (broadcastInDim S32x256x768 ![0, 1, 2] bcast_S32x256x1_S32x256x768_0_1_2 (Rmean p)))

/-- The row variances (last axis of extent 1): the sum of squared deviations divided by `768 - ddof`, kept where that
    divisor is positive and the constant 0x7FC00000 elsewhere. -/
def Rvar (p : FVec F S32x256x768 .f32) : FVec F S32x256x1 .f32 :=
  select
    (broadcastInDim S32x256x1 ![] bcast_S_S32x256x1
      (cmpf .ogt (RvarDen (F := F)) (constant (F := F) S_ .f32 0x00000000#32)))
    (Host.divf
      (broadcastInDim S32x256x1 ![0, 1] bcast_S32x256_S32x256x1_0_1
        (Host.reduceAdd (Rsq p) (constant (F := F) S_ .f32 0x00000000#32) reducesTo_S32x256x768_S32x256_d2 h_S_))
      (broadcastInDim S32x256x1 ![] bcast_S_S32x256x1 (RvarDen (F := F))))
    (broadcastInDim S32x256x1 ![] bcast_S_S32x256x1 (id (constant (F := F) S_ .f32 0x7FC00000#32)))

/-- LayerNorm of each row of `p`, scaled by `a6` and shifted by `a7`:
    `(p - mean) * rsqrt(var + eps) * γ + β`, the row statistics and the scale and shift broadcast along the axes they lack. -/
def RlnHost (p : FVec F S32x256x768 .f32) (a6 a7 : FVec F S768 .f32) : FVec F S32x256x768 .f32 :=
  addf
    (mulf
      (mulf
        (subf p (broadcastInDim S32x256x768 ![0, 1, 2] bcast_S32x256x1_S32x256x768_0_1_2 (Rmean p)))
        (broadcastInDim S32x256x768 ![0, 1, 2] bcast_S32x256x1_S32x256x768_0_1_2
          (Host.rsqrt
            (addf (Rvar p)
              (broadcastInDim S32x256x1 ![] bcast_S_S32x256x1 (constant (F := F) S_ .f32 0x2B8CBCCC#32))))))
      (broadcastInDim S32x256x768 ![0, 1, 2] bcast_S1x1x768_S32x256x768_0_1_2
        (broadcastInDim S1x1x768 ![2] bcast_S768_S1x1x768_2 a6)))
    (broadcastInDim S32x256x768 ![0, 1, 2] bcast_S1x1x768_S32x256x768_0_1_2
      (broadcastInDim S1x1x768 ![2] bcast_S768_S1x1x768_2 a7))

/-- The reference's result as a function of its eight arguments. -/
def Rout (a0 : IVec S32x512 32) (a1 a2 a3 : IVec S16384 32) (a4 : FVec F S16384 .f32) (a5 : FVec F S30522x768 .f32)
    (a6 a7 : FVec F S768 .f32) : FVec F S32x256x768 .f32 :=
  RlnHost (Rpooled a0 a1 a2 a3 a4 a5) a6 a7

end Cert.ReferenceIdeal.Hand

end
-- ==== Proof.RefRun.lean ====
/-
  The reference program's run: @main as the list of its 84 host operations in order — the variance function's twenty
  and, inside it, the select function's three, inline at their call sites over the calls' buffer records — and the run
  read back: every weakly fair execution terminates with the result buffer at the staged term `Rout` of the arguments'
  launch contents, the arguments unchanged.
-/
import proofs.«413540_j35467839930966_2_alg».proof.Proof.RefTerms
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 84 operations, in order: statements 1 … 48 of @main, then the variance function's body over the record
    `main_call0` (its last line the select function's body over `main_call0.call0`, whose result is `main_v35`), then
    @main's remaining fifteen. -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    nullary main_cst (constant S_ .f32 0x00000000#32),
    unary main_cst main_v1 (broadcastInDim S768 ![] bcast_S_S768 : (⟨S_, .f32⟩ : BufTy).Contents (Elt F) → (⟨S768, .f32⟩ : BufTy).Contents (Elt F)),
    ternary main_arg5 main_v0 main_v1 main_v2 ((fun x i u => Host.scatter scatter_S30522x768_S1_S768_0_0_0_0 (fun _ b => b) x i u) : (⟨S30522x768, .f32⟩ : BufTy).Contents (Elt F) → (⟨S1, .i32⟩ : BufTy).Contents (Elt F) → (⟨S768, .f32⟩ : BufTy).Contents (Elt F) → (⟨S30522x768, .f32⟩ : BufTy).Contents (Elt F)),
    reshape main_arg0 main_v3 rfl shapeCasts_S32x512_S16384,
    nullary main_c_0 (constantI S_ 32 0#32),
    unary main_c_0 main_v4 (broadcastInDim S16384 ![] bcast_S_S16384 : (⟨S_, .i32⟩ : BufTy).Contents (Elt F) → (⟨S16384, .i32⟩ : BufTy).Contents (Elt F)),
    binary main_v3 main_v4 main_v5 (cmpi .slt : (⟨S16384, .i32⟩ : BufTy).Contents (Elt F) → (⟨S16384, .i32⟩ : BufTy).Contents (Elt F) → (⟨S16384, .i1⟩ : BufTy).Contents (Elt F)),
    nullary main_c_1 (constantI S_ 32 30522#32),
    unary main_c_1 main_v6 (broadcastInDim S16384 ![] bcast_S_S16384 : (⟨S_, .i32⟩ : BufTy).Contents (Elt F) → (⟨S16384, .i32⟩ : BufTy).Contents (Elt F)),
    binary main_v3 main_v6 main_v7 (addi : (⟨S16384, .i32⟩ : BufTy).Contents (Elt F) → (⟨S16384, .i32⟩ : BufTy).Contents (Elt F) → (⟨S16384, .i32⟩ : BufTy).Contents (Elt F)),
    ternary main_v5 main_v7 main_v3 main_v8 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v8 main_v9 (broadcastInDim S16384x1 ![0] bcast_S16384_S16384x1_0 : (⟨S16384, .i32⟩ : BufTy).Contents (Elt F) → (⟨S16384x1, .i32⟩ : BufTy).Contents (Elt F)),
    binary main_v2 main_v9 main_v10 ((fun x i => Host.gather gather_S30522x768_S16384x1_S16384x768_1_0_n_n_0_1_1768 x i) : (⟨S30522x768, .f32⟩ : BufTy).Contents (Elt F) → (⟨S16384x1, .i32⟩ : BufTy).Contents (Elt F) → (⟨S16384x768, .f32⟩ : BufTy).Contents (Elt F)),
    nullary main_c_2 (constantI S_ 32 256#32),
    unary main_c_2 main_v11 (broadcastInDim S16384 ![] bcast_S_S16384 : (⟨S_, .i32⟩ : BufTy).Contents (Elt F) → (⟨S16384, .i32⟩ : BufTy).Contents (Elt F)),
    binary main_arg1 main_v11 main_v12 (muli : (⟨S16384, .i32⟩ : BufTy).Contents (Elt F) → (⟨S16384, .i32⟩ : BufTy).Contents (Elt F) → (⟨S16384, .i32⟩ : BufTy).Contents (Elt F)),
    binary main_v12 main_arg2 main_v13 (addi : (⟨S16384, .i32⟩ : BufTy).Contents (Elt F) → (⟨S16384, .i32⟩ : BufTy).Contents (Elt F) → (⟨S16384, .i32⟩ : BufTy).Contents (Elt F)),
    nullary main_c_3 (constantI S_ 32 512#32),
    unary main_c_3 main_v14 (broadcastInDim S16384 ![] bcast_S_S16384 : (⟨S_, .i32⟩ : BufTy).Contents (Elt F) → (⟨S16384, .i32⟩ : BufTy).Contents (Elt F)),
    binary main_arg1 main_v14 main_v15 (muli : (⟨S16384, .i32⟩ : BufTy).Contents (Elt F) → (⟨S16384, .i32⟩ : BufTy).Contents (Elt F) → (⟨S16384, .i32⟩ : BufTy).Contents (Elt F)),
    binary main_v15 main_arg3 main_v16 (addi : (⟨S16384, .i32⟩ : BufTy).Contents (Elt F) → (⟨S16384, .i32⟩ : BufTy).Contents (Elt F) → (⟨S16384, .i32⟩ : BufTy).Contents (Elt F)),
    nullary main_c_4 (constantI S_ 32 0#32),
    unary main_c_4 main_v17 (broadcastInDim S16384 ![] bcast_S_S16384 : (⟨S_, .i32⟩ : BufTy).Contents (Elt F) → (⟨S16384, .i32⟩ : BufTy).Contents (Elt F)),
    binary main_v16 main_v17 main_v18 (cmpi .slt : (⟨S16384, .i32⟩ : BufTy).Contents (Elt F) → (⟨S16384, .i32⟩ : BufTy).Contents (Elt F) → (⟨S16384, .i1⟩ : BufTy).Contents (Elt F)),
    nullary main_c_5 (constantI S_ 32 16384#32),
    unary main_c_5 main_v19 (broadcastInDim S16384 ![] bcast_S_S16384 : (⟨S_, .i32⟩ : BufTy).Contents (Elt F) → (⟨S16384, .i32⟩ : BufTy).Contents (Elt F)),
    binary main_v16 main_v19 main_v20 (addi : (⟨S16384, .i32⟩ : BufTy).Contents (Elt F) → (⟨S16384, .i32⟩ : BufTy).Contents (Elt F) → (⟨S16384, .i32⟩ : BufTy).Contents (Elt F)),
    ternary main_v18 main_v20 main_v16 main_v21 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v21 main_v22 (broadcastInDim S16384x1 ![0] bcast_S16384_S16384x1_0 : (⟨S16384, .i32⟩ : BufTy).Contents (Elt F) → (⟨S16384x1, .i32⟩ : BufTy).Contents (Elt F)),
    binary main_v10 main_v22 main_v23 ((fun x i => Host.gather gather_S16384x768_S16384x1_S16384x768_1_0_n_n_0_1_1768 x i) : (⟨S16384x768, .f32⟩ : BufTy).Contents (Elt F) → (⟨S16384x1, .i32⟩ : BufTy).Contents (Elt F) → (⟨S16384x768, .f32⟩ : BufTy).Contents (Elt F)),
    unary main_arg4 main_v24 (broadcastInDim S16384x1 ![0] bcast_S16384_S16384x1_0 : (⟨S16384, .f32⟩ : BufTy).Contents (Elt F) → (⟨S16384x1, .f32⟩ : BufTy).Contents (Elt F)),
    unary main_v24 main_v25 (broadcastInDim S16384x768 ![0, 1] bcast_S16384x1_S16384x768_0_1 : (⟨S16384x1, .f32⟩ : BufTy).Contents (Elt F) → (⟨S16384x768, .f32⟩ : BufTy).Contents (Elt F)),
    binary main_v23 main_v25 main_v26 (mulf : (⟨S16384x768, .f32⟩ : BufTy).Contents (Elt F) → (⟨S16384x768, .f32⟩ : BufTy).Contents (Elt F) → (⟨S16384x768, .f32⟩ : BufTy).Contents (Elt F)),
    nullary main_cst_6 (constant S_ .f32 0x00000000#32),
    unary main_cst_6 main_v27 (broadcastInDim S8192x768 ![] bcast_S_S8192x768 : (⟨S_, .f32⟩ : BufTy).Contents (Elt F) → (⟨S8192x768, .f32⟩ : BufTy).Contents (Elt F)),
    unary main_v13 main_v28 (broadcastInDim S16384x1 ![0] bcast_S16384_S16384x1_0 : (⟨S16384, .i32⟩ : BufTy).Contents (Elt F) → (⟨S16384x1, .i32⟩ : BufTy).Contents (Elt F)),
    ternary main_v27 main_v28 main_v26 main_v29 ((fun x i u => Host.scatterAdd scatter_S8192x768_S16384x1_S16384x768_1_0_0_1 x i u) : (⟨S8192x768, .f32⟩ : BufTy).Contents (Elt F) → (⟨S16384x1, .i32⟩ : BufTy).Contents (Elt F) → (⟨S16384x768, .f32⟩ : BufTy).Contents (Elt F) → (⟨S8192x768, .f32⟩ : BufTy).Contents (Elt F)),
    reshape main_v29 main_v30 rfl shapeCasts_S8192x768_S32x256x768,
    nullary main_cst_7 (constant S_ .f32 0x00000000#32),
    binary main_v30 main_cst_7 main_v31 ((fun x v => Host.reduceAdd x v reducesTo_S32x256x768_S32x256_d2 h_S_) : (⟨S32x256x768, .f32⟩ : BufTy).Contents (Elt F) → (⟨S_, .f32⟩ : BufTy).Contents (Elt F) → (⟨S32x256, .f32⟩ : BufTy).Contents (Elt F)),
    unary main_v31 main_v32 (broadcastInDim S32x256x1 ![0, 1] bcast_S32x256_S32x256x1_0_1 : (⟨S32x256, .f32⟩ : BufTy).Contents (Elt F) → (⟨S32x256x1, .f32⟩ : BufTy).Contents (Elt F)),
    nullary main_cst_8 (constant S_ .f32 0x44400000#32),
    unary main_cst_8 main_v33 (broadcastInDim S32x256x1 ![] bcast_S_S32x256x1 : (⟨S_, .f32⟩ : BufTy).Contents (Elt F) → (⟨S32x256x1, .f32⟩ : BufTy).Contents (Elt F)),
    binary main_v32 main_v33 main_v34 (Host.divf : (⟨S32x256x1, .f32⟩ : BufTy).Contents (Elt F) → (⟨S32x256x1, .f32⟩ : BufTy).Contents (Elt F) → (⟨S32x256x1, .f32⟩ : BufTy).Contents (Elt F)),
    nullary main_c_9 (constantI S_ 32 0#32),
    TRef.nullary main_call0.cst (constant S_ .f32 0x00000000#32),
    TRef.binary (.of main_v30) main_call0.cst main_call0.v0 (fun x v => Host.reduceAdd x v reducesTo_S32x256x768_S32x256_d2 h_S_),
    TRef.unary main_call0.v0 main_call0.v1 (broadcastInDim S32x256x1 ![0, 1] bcast_S32x256_S32x256x1_0_1),
    TRef.nullary main_call0.cst_0 (constant S_ .f32 0x44400000#32),
    TRef.unary main_call0.cst_0 main_call0.v2 (broadcastInDim S32x256x1 ![] bcast_S_S32x256x1),
    TRef.binary main_call0.v1 main_call0.v2 main_call0.v3 Host.divf,
    TRef.unary main_call0.v3 main_call0.v4 (broadcastInDim S32x256x768 ![0, 1, 2] bcast_S32x256x1_S32x256x768_0_1_2),
    TRef.binary (.of main_v30) main_call0.v4 main_call0.v5 subf,
    TRef.binary main_call0.v5 main_call0.v5 main_call0.v6 mulf,
    TRef.unary (.of main_c_9) main_call0.v7 (sitofp .f32),
    TRef.nullary main_call0.cst_1 (constant S_ .f32 0x44400000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32x256x768_S32x256_d2 h_S_),
    TRef.unary main_call0.v9 main_call0.v10 (broadcastInDim S32x256x1 ![0, 1] bcast_S32x256_S32x256x1_0_1),
    TRef.unary main_call0.v8 main_call0.v11 (broadcastInDim S32x256x1 ![] bcast_S_S32x256x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S32x256x1 ![] bcast_S_S32x256x1),
    TRef.ternary main_call0.v13 main_call0.v12 main_call0.call0.v1 main_call0.call0.v2 (fun p a b => select (broadcastInDim S32x256x1 ![] bcast_S_S32x256x1 p) a b),
    unary main_v34 main_v36 (broadcastInDim S32x256x768 ![0, 1, 2] bcast_S32x256x1_S32x256x768_0_1_2 : (⟨S32x256x1, .f32⟩ : BufTy).Contents (Elt F) → (⟨S32x256x768, .f32⟩ : BufTy).Contents (Elt F)),
    binary main_v30 main_v36 main_v37 (subf : (⟨S32x256x768, .f32⟩ : BufTy).Contents (Elt F) → (⟨S32x256x768, .f32⟩ : BufTy).Contents (Elt F) → (⟨S32x256x768, .f32⟩ : BufTy).Contents (Elt F)),
    nullary main_cst_10 (constant S_ .f32 0x2B8CBCCC#32),
    unary main_cst_10 main_v38 (broadcastInDim S32x256x1 ![] bcast_S_S32x256x1 : (⟨S_, .f32⟩ : BufTy).Contents (Elt F) → (⟨S32x256x1, .f32⟩ : BufTy).Contents (Elt F)),
    binary main_v35 main_v38 main_v39 (addf : (⟨S32x256x1, .f32⟩ : BufTy).Contents (Elt F) → (⟨S32x256x1, .f32⟩ : BufTy).Contents (Elt F) → (⟨S32x256x1, .f32⟩ : BufTy).Contents (Elt F)),
    unary main_v39 main_v40 (Host.rsqrt : (⟨S32x256x1, .f32⟩ : BufTy).Contents (Elt F) → (⟨S32x256x1, .f32⟩ : BufTy).Contents (Elt F)),
    unary main_v40 main_v41 (broadcastInDim S32x256x768 ![0, 1, 2] bcast_S32x256x1_S32x256x768_0_1_2 : (⟨S32x256x1, .f32⟩ : BufTy).Contents (Elt F) → (⟨S32x256x768, .f32⟩ : BufTy).Contents (Elt F)),
    binary main_v37 main_v41 main_v42 (mulf : (⟨S32x256x768, .f32⟩ : BufTy).Contents (Elt F) → (⟨S32x256x768, .f32⟩ : BufTy).Contents (Elt F) → (⟨S32x256x768, .f32⟩ : BufTy).Contents (Elt F)),
    unary main_arg6 main_v43 (broadcastInDim S1x1x768 ![2] bcast_S768_S1x1x768_2 : (⟨S768, .f32⟩ : BufTy).Contents (Elt F) → (⟨S1x1x768, .f32⟩ : BufTy).Contents (Elt F)),
    unary main_v43 main_v44 (broadcastInDim S32x256x768 ![0, 1, 2] bcast_S1x1x768_S32x256x768_0_1_2 : (⟨S1x1x768, .f32⟩ : BufTy).Contents (Elt F) → (⟨S32x256x768, .f32⟩ : BufTy).Contents (Elt F)),
    binary main_v42 main_v44 main_v45 (mulf : (⟨S32x256x768, .f32⟩ : BufTy).Contents (Elt F) → (⟨S32x256x768, .f32⟩ : BufTy).Contents (Elt F) → (⟨S32x256x768, .f32⟩ : BufTy).Contents (Elt F)),
    unary main_arg7 main_v46 (broadcastInDim S1x1x768 ![2] bcast_S768_S1x1x768_2 : (⟨S768, .f32⟩ : BufTy).Contents (Elt F) → (⟨S1x1x768, .f32⟩ : BufTy).Contents (Elt F)),
    unary main_v46 main_v47 (broadcastInDim S32x256x768 ![0, 1, 2] bcast_S1x1x768_S32x256x768_0_1_2 : (⟨S1x1x768, .f32⟩ : BufTy).Contents (Elt F) → (⟨S32x256x768, .f32⟩ : BufTy).Contents (Elt F)),
    binary main_v45 main_v47 main_v48 (addf : (⟨S32x256x768, .f32⟩ : BufTy).Contents (Elt F) → (⟨S32x256x768, .f32⟩ : BufTy).Contents (Elt F) → (⟨S32x256x768, .f32⟩ : BufTy).Contents (Elt F)) ]

-- eighty-four binds re-associated: the rewrite under the chain recurses once per statement
set_option maxRecDepth 4096 in
set_option maxHeartbeats 4000000 in
/-- @main is that straight line: both windows of @main and the two functions' bodies unfolded at their calls, the
    sequencing re-associated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., ternary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., reshape_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

attribute [local irreducible] Host.reduceAdd Host.gather Host.scatter Host.scatterAdd Host.divf Host.rsqrt in
set_option maxRecDepth 8192 in
set_option maxHeartbeats 4000000 in
/-- The result buffer after the 84 operations is `Rout` of the arguments' contents, by computation: the fold unrolled,
    each operation's result deciding whether the buffer read is the one it writes, the typed references' transports the
    identity at these literal references. The sums, gathers and scatters are kept folded meanwhile (the equation never
    looks inside them). -/
theorem out_eq (V : Valuation τ sig (Elt F)) :
    after ops V (main_v48 : DevRef τ sig)
      = Rout (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp only [after_cons, after_nil]
  rfl

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

set_option maxRecDepth 8192 in
theorem arg3_eq (V : Valuation τ sig (Elt F)) :
    after ops V (main_arg3 : DevRef τ sig) = V (main_arg3 : DevRef τ sig) := by
  simp only [after_cons, after_nil]
  rfl

set_option maxRecDepth 8192 in
theorem arg4_eq (V : Valuation τ sig (Elt F)) :
    after ops V (main_arg4 : DevRef τ sig) = V (main_arg4 : DevRef τ sig) := by
  simp only [after_cons, after_nil]
  rfl

set_option maxRecDepth 8192 in
theorem arg5_eq (V : Valuation τ sig (Elt F)) :
    after ops V (main_arg5 : DevRef τ sig) = V (main_arg5 : DevRef τ sig) := by
  simp only [after_cons, after_nil]
  rfl

set_option maxRecDepth 8192 in
theorem arg6_eq (V : Valuation τ sig (Elt F)) :
    after ops V (main_arg6 : DevRef τ sig) = V (main_arg6 : DevRef τ sig) := by
  simp only [after_cons, after_nil]
  rfl

set_option maxRecDepth 8192 in
theorem arg7_eq (V : Valuation τ sig (Elt F)) :
    after ops V (main_arg7 : DevRef τ sig) = V (main_arg7 : DevRef τ sig) := by
  simp only [after_cons, after_nil]
  rfl

/-- On every device, for any float values, from any memory with zero counters: every weakly fair execution of @main
    terminates with the result at `Rout` of the arguments' launch contents and the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = Rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.Hand

end
-- ==== Proof.RefTable.lean ====
/-
  The reference's table: the embedding table with row 0 overwritten by zeros, read at an index.

  The table is a scatter of ONE update row of 768 numbers written at the single start index 0: update `h` lands at
  `(0 + 0, 0 + h)`, the 768 landing places are distinct, and each is written once with the update's value. So the result
  at `(r, h)` is the update's `h` on row 0 and the operand elsewhere.
-/
import proofs.«413540_j35467839930966_2_alg».proof.Proof.RefTerms
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-- Every update index lands in row 0, at its own column: the start index is the zero word, read signed and not clamped; the
    operand's row axis is the inserted one, its column axis takes the update's one coordinate. -/
theorem resultIdx_row0 (idx : IVec S1 32) (hidx : idx (ix1 0) = 0#32) (j : S768.Idx) :
    scatter_S30522x768_S1_S768_0_0_0_0.resultIdx? j idx = some (ix2 (0 : Fin 30522) (j 0 : Fin 768)) := by
  have hs0 : scatter_S30522x768_S1_S768_0_0_0_0.start j idx 0 = 0 := by
    unfold ScatterDims.start
    rw [dif_pos (show (0 : Fin 2) ∈ scatter_S30522x768_S1_S768_0_0_0_0.scatterDimsToOperandDims from List.mem_singleton.mpr rfl)]
    have hsi : scatter_S30522x768_S1_S768_0_0_0_0.siIdx j ⟨List.idxOf (0 : Fin 2) scatter_S30522x768_S1_S768_0_0_0_0.scatterDimsToOperandDims,
        List.idxOf_lt_length_iff.2 (List.mem_singleton.mpr rfl)⟩ = ix1 0 := by
      funext b; refine Fin.ext ?_
      match b with
      | ⟨0, _⟩ => rfl
    rw [hsi, hidx]; rfl
  have hs1 : scatter_S30522x768_S1_S768_0_0_0_0.start j idx 1 = 0 := by
    unfold ScatterDims.start
    rw [dif_neg (show (1 : Fin 2) ∉ scatter_S30522x768_S1_S768_0_0_0_0.scatterDimsToOperandDims by decide)]
  have hw0 : scatter_S30522x768_S1_S768_0_0_0_0.window j 0 = 0 := by
    unfold ScatterDims.window
    rw [dif_neg (show (0 : Fin 2) ∉ scatter_S30522x768_S1_S768_0_0_0_0.sKept by decide)]
  have hw1 : scatter_S30522x768_S1_S768_0_0_0_0.window j 1 = (j 0).val := by
    unfold ScatterDims.window
    rw [dif_pos (show (1 : Fin 2) ∈ scatter_S30522x768_S1_S768_0_0_0_0.sKept by decide)]
    rfl
  have key : ∀ a : Fin 2, scatter_S30522x768_S1_S768_0_0_0_0.start j idx a + (scatter_S30522x768_S1_S768_0_0_0_0.window j a : Int)
      = (((ix2 (0 : Fin 30522) (j 0 : Fin 768) : S30522x768.Idx) a).val : Int) := by
    intro a
    match a with
    | ⟨0, _⟩ =>
      show scatter_S30522x768_S1_S768_0_0_0_0.start j idx 0 + (scatter_S30522x768_S1_S768_0_0_0_0.window j 0 : Int) = ((0 : ℕ) : Int)
      rw [hs0, hw0]; rfl
    | ⟨1, _⟩ =>
      show scatter_S30522x768_S1_S768_0_0_0_0.start j idx 1 + (scatter_S30522x768_S1_S768_0_0_0_0.window j 1 : Int) = (((j 0).val : ℕ) : Int)
      rw [hs1, hw1]; exact Int.zero_add _
  unfold ScatterDims.resultIdx?
  rw [dif_pos (fun a => by
    rw [key a]
    exact ⟨Int.natCast_nonneg _, Int.ofNat_lt.mpr ((ix2 (0 : Fin 30522) (j 0 : Fin 768) : S30522x768.Idx) a).isLt⟩)]
  refine congrArg some (funext fun a => Fin.ext ?_)
  show (scatter_S30522x768_S1_S768_0_0_0_0.start j idx a + (scatter_S30522x768_S1_S768_0_0_0_0.window j a : Int)).toNat = _
  rw [key a]; exact Int.toNat_natCast _

/-! ## A fold of single-place writes

Each step writes one value at one place. A place no step writes keeps the initial value; a place exactly one step of a
duplicate-free list writes holds that step's value. -/

section Fold
variable {ι κ α : Type} [DecidableEq κ]

/-- A place none of the steps writes keeps the initial value. -/
theorem foldl_set_of_not_mem (pos : ι → κ) (val : ι → α) (i : κ) :
    ∀ (L : List ι) (x : κ → α), (∀ n ∈ L, pos n ≠ i) →
      L.foldl (fun r n => fun i' => if i' = pos n then val n else r i') x i = x i
  | [], _, _ => rfl
  | n :: L, x, hL => by
    rw [List.foldl_cons, foldl_set_of_not_mem pos val i L _ (fun n' hn' => hL n' (List.mem_cons_of_mem _ hn'))]
    exact if_neg (fun e => hL n List.mem_cons_self e.symm)

/-- A place exactly one step of a duplicate-free list writes holds that step's value. -/
theorem foldl_set_of_mem (pos : ι → κ) (val : ι → α) (i : κ) (n₀ : ι) (h₀ : pos n₀ = i) :
    ∀ (L : List ι) (x : κ → α), L.Nodup → n₀ ∈ L → (∀ n ∈ L, pos n = i → n = n₀) →
      L.foldl (fun r n => fun i' => if i' = pos n then val n else r i') x i = val n₀
  | [], _, _, hm, _ => absurd hm List.not_mem_nil
  | n :: L, x, hnd, hm, hu => by
    rw [List.foldl_cons]
    by_cases hn : n = n₀
    · subst hn
      have hnot : n ∉ L := (List.nodup_cons.mp hnd).1
      rw [foldl_set_of_not_mem pos val i L _ (fun n' hn' e => hnot (hu n' (List.mem_cons_of_mem _ hn') e ▸ hn'))]
      exact if_pos h₀.symm
    · have hm' : n₀ ∈ L := by
        rcases List.mem_cons.mp hm with e | e
        · exact absurd e.symm hn
        · exact e
      exact foldl_set_of_mem pos val i n₀ h₀ L _ (List.nodup_cons.mp hnd).2 hm'
        (fun n' hn' => hu n' (List.mem_cons_of_mem _ hn'))

end Fold

/-- One update row written at the single start index 0 (the body returns the update): row 0 of the result is the update
    row, every other row the operand's. -/
theorem scatter_row0_apply {α : Type} (x : S30522x768.Idx → α) (idx : IVec S1 32) (hidx : idx (ix1 0) = 0#32)
    (u : S768.Idx → α) (r : Fin 30522) (h : Fin 768) :
    Host.scatter scatter_S30522x768_S1_S768_0_0_0_0 (fun _ b => b) x idx u (ix2 r h)
      = if r.val = 0 then u (ix1 h) else x (ix2 r h) := by
  unfold Host.scatter
  -- each step writes the update's value at row 0, the update's own column
  simp only [resultIdx_row0 idx hidx]
  by_cases hr : r.val = 0
  · -- row 0: of the 768 steps exactly the one of update `h` writes column `h`
    rw [if_pos hr]
    obtain rfl : r = 0 := Fin.ext hr
    refine (foldl_set_of_mem
      (fun n : Fin S768.numel => (ix2 (0 : Fin 30522) ((S768.rowMajor.symm n) 0 : Fin 768) : S30522x768.Idx))
      (fun n => u (S768.rowMajor.symm n)) (ix2 0 h) (S768.rowMajor (ix1 h)) ?_ _ x (List.nodup_finRange _)
      (List.mem_finRange _) ?_).trans ?_
    · show (ix2 (0 : Fin 30522) ((S768.rowMajor.symm (S768.rowMajor (ix1 h))) 0 : Fin 768) : S30522x768.Idx) = ix2 0 h
      rw [Equiv.symm_apply_apply]
    · intro n _ e
      have hc : ((S768.rowMajor.symm n) 0 : Fin 768) = h := congrFun e 1
      have hj : S768.rowMajor.symm n = ix1 h := (eq_ix1 _).trans (congrArg ix1 hc)
      exact (Equiv.symm_apply_eq _).mp hj
    · show u (S768.rowMajor.symm (S768.rowMajor (ix1 h))) = u (ix1 h)
      rw [Equiv.symm_apply_apply]
  · -- another row: no step writes there
    rw [if_neg hr]
    refine foldl_set_of_not_mem
      (fun n : Fin S768.numel => (ix2 (0 : Fin 30522) ((S768.rowMajor.symm n) 0 : Fin 768) : S30522x768.Idx))
      (fun n => u (S768.rowMajor.symm n)) (ix2 r h) _ x (fun n _ e => hr ?_)
    have hc : (0 : Fin 30522) = r := congrFun e 0
    rw [← hc]; rfl

/-- The reference's table at the ideal instance: row 0 is zero, every other row the argument table's. -/
theorem Rtable_apply (a5 : FVec Ideal S30522x768 .f32) (r : Fin 30522) (h : Fin 768) :
    Rtable (F := Ideal) a5 (ix2 r h) = if r.val = 0 then 0 else a5 (ix2 r h) := by
  unfold Rtable
  rw [scatter_row0_apply (α := EReal) a5 _ rfl]
  -- the update row is the scalar constant of the zero word, read at every column: the extended real 0
  have hz : broadcastInDim S768 ![] bcast_S_S768 (constant (F := Ideal) S_ .f32 0x00000000#32) (ix1 h) = (0 : EReal) :=
    Ideal.ofBits_zero_f32
  rw [hz]

end Cert.ReferenceIdeal.Hand

end
-- ==== Proof.RefLn.lean ====
/-
  The reference's LayerNorm, read at one index: the composition of the host operations (sums along the last axis,
  divisions by the constant 768, the reciprocal square root, the broadcasts of the row statistics and of the scale and
  shift) is, at `(b, n, h)`, the LayerNorm of row `(b, n)` as the common specification writes it.
-/
import proofs.«413540_j35467839930966_2_alg».proof.Proof.RefTerms
import proofs.«413540_j35467839930966_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Hand

open Cert.ReferenceIdeal Idealize.ShloMosaic Idealize.ShloMosaic.ValueIdx

/-! ## Constants -/

namespace Ln

open Cert.ReferenceIdeal.Gen

/-- The f32 pattern 0x44400000 denotes the real 768. -/
theorem ofBits_768 : Ideal.ofBits .f32 0x44400000#32 = ((768 : ℝ) : EReal) := by
  simp [Ideal.ofBits, Ideal.ieee, -EReal.coe_mul]; norm_num

/-- The variance's divisor `768 - 0` (the integer 0 converted to a float) is the constant 768 itself. -/
theorem RvarDen_eq : RvarDen (F := Ideal) ix0 = Ideal.ofBits .f32 0x44400000#32 := by
  show Ideal.ofBits .f32 0x44400000#32 - (((0#32 : BitVec 32).toInt : ℝ) : EReal) = _
  have hz : (0#32 : BitVec 32).toInt = 0 := by decide
  rw [hz]
  simp

/-- The divisor is positive: the comparison `768 - 0 > 0` is true. -/
theorem RvarDen_pos :
    cmpf .ogt (RvarDen (F := Ideal)) (constant (F := Ideal) S_ .f32 0x00000000#32) ix0 = 1#1 := by
  show Ideal.cmp .ogt (RvarDen (F := Ideal) ix0) (Ideal.ofBits .f32 0x00000000#32) = 1#1
  rw [RvarDen_eq, ofBits_768, Ideal.ofBits_zero_f32]
  unfold Ideal.cmp
  have hpos : (0 : EReal) < ((768 : ℝ) : EReal) := EReal.coe_pos.2 (by norm_num)
  simp [hpos]

/-! ## Broadcasts read at an index -/

section Bcast
variable {α : Type}

/-- A last axis of extent 1 broadcast to 768: the value at (b, n, 0). -/
theorem bcast_last_apply (x : S32x256x1.Idx → α) (b : Fin 32) (n : Fin 256) (h : Fin 768) :
    broadcastInDim S32x256x768 ![0, 1, 2] bcast_S32x256x1_S32x256x768_0_1_2 x (ix3 b n h) = x (ix3 b n 0) := by
  refine broadcastInDim_apply _ _ x _ _ ?_
  intro a
  match a with
  | ⟨0, _⟩ => rfl
  | ⟨1, _⟩ => rfl
  | ⟨2, _⟩ => rfl

/-- A [32, 256] array given a last axis of extent 1: the value at (b, n). -/
theorem bcast_keep_apply (x : S32x256.Idx → α) (b : Fin 32) (n : Fin 256) :
    broadcastInDim S32x256x1 ![0, 1] bcast_S32x256_S32x256x1_0_1 x (ix3 b n 0) = x (ix2 b n) := by
  refine broadcastInDim_apply _ _ x _ _ ?_
  intro a
  match a with
  | ⟨0, _⟩ => rfl
  | ⟨1, _⟩ => rfl

/-- A scalar broadcast to [32, 256, 1]: the scalar. -/
theorem bcast_scalar1_apply (x : S_.Idx → α) (j : S32x256x1.Idx) :
    broadcastInDim S32x256x1 ![] bcast_S_S32x256x1 x j = x ix0 := by
  refine broadcastInDim_apply _ _ x _ _ ?_
  intro a; exact a.elim0

/-- A vector over the last axis broadcast to [1, 1, 768] and then to [32, 256, 768]: the value at h. -/
theorem bcast_vec_apply (x : S768.Idx → α) (b : Fin 32) (n : Fin 256) (h : Fin 768) :
    broadcastInDim S32x256x768 ![0, 1, 2] bcast_S1x1x768_S32x256x768_0_1_2
      (broadcastInDim S1x1x768 ![2] bcast_S768_S1x1x768_2 x) (ix3 b n h) = x (ix1 h) := by
  rw [broadcastInDim_apply _ _ _ _ (ix3 (0 : Fin 1) (0 : Fin 1) h) (by
    intro a
    match a with
    | ⟨0, _⟩ => rfl
    | ⟨1, _⟩ => rfl
    | ⟨2, _⟩ => rfl)]
  refine broadcastInDim_apply _ _ x _ _ ?_
  intro a
  match a with
  | ⟨0, _⟩ => rfl

end Bcast

/-! ## The sum over the last axis -/

/-- The host sum over the last axis from the zero constant, at (b, n): the sum of the 768 components of row (b, n). -/
theorem reduce_last_apply (p : FVec Ideal S32x256x768 .f32) (b : Fin 32) (n : Fin 256) :
    Host.reduceAdd p (constant (F := Ideal) S_ .f32 0x00000000#32) reducesTo_S32x256x768_S32x256_d2 h_S_ (ix2 b n)
      = ∑ k : Fin 768, p (ix3 b n k) := by
  unfold Host.reduceAdd
  rw [Ideal.hostReduceAdd_def,
    Ideal.hostReduceAdd_single reducesTo_S32x256x768_S32x256_d2 (by decide : Shape.Reduces S32x256x768 [2] S32x256)]
  rw [constant_apply, Ideal.ofBits_zero_f32, zero_add]
  refine Finset.sum_congr rfl fun k _ => congrArg p ?_
  funext a
  match a with
  | ⟨0, _⟩ => rfl
  | ⟨1, _⟩ => rfl
  | ⟨2, _⟩ => rfl

/-! ## The row statistics -/

/-- The mean of row (b, n): the sum of its 768 components divided by the constant 768. -/
theorem Rmean_apply (p : FVec Ideal S32x256x768 .f32) (b : Fin 32) (n : Fin 256) :
    Rmean (F := Ideal) p (ix3 b n 0)
      = Ideal.div (∑ k : Fin 768, p (ix3 b n k)) (Ideal.ofBits .f32 0x44400000#32) := by
  unfold Rmean Host.divf
  simp only [Ideal.hostDivf_def]
  rw [bcast_keep_apply, bcast_scalar1_apply, reduce_last_apply, constant_apply]

/-- A squared deviation of row (b, n) from the row's mean. -/
theorem Rsq_apply (p : FVec Ideal S32x256x768 .f32) (b : Fin 32) (n : Fin 256) (k : Fin 768) :
    Rsq (F := Ideal) p (ix3 b n k)
      = (p (ix3 b n k) - Rmean (F := Ideal) p (ix3 b n 0)) * (p (ix3 b n k) - Rmean (F := Ideal) p (ix3 b n 0)) := by
  unfold Rsq
  rw [mulf_apply, subf_apply, bcast_last_apply]

/-- The variance of row (b, n): the sum of the squared deviations divided by the constant 768 (the divisor is positive,
    so the quotient is the branch taken). -/
theorem Rvar_apply (p : FVec Ideal S32x256x768 .f32) (b : Fin 32) (n : Fin 256) :
    Rvar (F := Ideal) p (ix3 b n 0)
      = Ideal.div (∑ k : Fin 768, Rsq (F := Ideal) p (ix3 b n k)) (Ideal.ofBits .f32 0x44400000#32) := by
  unfold Rvar Host.divf
  rw [select_apply, bcast_scalar1_apply, RvarDen_pos, select_one]
  simp only [Ideal.hostDivf_def]
  rw [bcast_keep_apply, bcast_scalar1_apply, reduce_last_apply, RvarDen_eq]

end Ln

open Ln

/-- The reference's LayerNorm chain at `(b, n, h)` is `lnRow` of row `(b, n)` of its operand. -/
theorem RlnHost_apply (p : FVec Ideal S32x256x768 .f32) (a6 a7 : FVec Ideal S768 .f32) (b : Fin 32) (n : Fin 256) (h : Fin 768) :
    RlnHost (F := Ideal) p a6 a7 (ix3 b n h)
      = Cert.Spec.lnRow (fun h' => p (ix3 b n h')) (fun h' => a6 (ix1 h')) (fun h' => a7 (ix1 h')) h := by
  unfold RlnHost Host.rsqrt
  rw [addf_apply, mulf_apply, mulf_apply, subf_apply, bcast_last_apply, bcast_last_apply, bcast_vec_apply, bcast_vec_apply]
  rw [Ideal.hostUnary_rsqrt_def, addf_apply, bcast_scalar1_apply, constant_apply, Rvar_apply]
  simp only [Rsq_apply, Rmean_apply]
  rfl

end Cert.ReferenceIdeal.Hand

end
-- ==== Proof.RefRead.lean ====
/-
  The reference program's result read at an index, over the extended reals, and shown to be the common specification.

  The LayerNorm stage read at (b, n, h) is `lnRow` of the pooled row (b, n) (module RefLn). Here: under the range
  hypotheses the pooled array at (b, n, h) is `pool`. The scatter-add into zeros sums, at row r = b * 256 + n, the
  contributions of the triples whose segment word `mb * 256 + mn`, read signed, is r — those with `mb = b` and `mn = n`,
  since the word does not wrap and `mn < 256`. Each contribution is the triple's weight times a row read through two row
  gathers: the first gather's row at `mb * 512 + ms` (a start index in range is not moved by the clamp), which is the
  row-0-zeroed table's row at the flattened id at that position, i.e. at `ids (mb, ms)` (`[32, 512] → [16384]` is
  row-major); the sign normalisations of the two index arrays do nothing on non-negative words. The zeroed row 0 is the
  specification's zero embedding of the padding id, and an id in range is its own residue modulo the table's height.
-/
import proofs.«413540_j35467839930966_2_alg».proof.Proof.RefTerms
import proofs.«413540_j35467839930966_2_alg».proof.Proof.RefTable
import proofs.«413540_j35467839930966_2_alg».proof.Proof.RefLn
import proofs.«413540_j35467839930966_2_alg».proof.Proof.Spec
import Idealize.ShloMosaic.Lib.ValueIdx
import Idealize.ShloMosaic.Lib.Pipeline.Value
import Idealize.ShloMosaic.Lib.StableHlo.Predicate
import Idealize.ShloMosaic.PureOps.Ideal.Laws
import Idealize.ShloMosaic.Lib.ValueLayout

noncomputable section

namespace Cert.ReferenceIdeal.Hand

open Cert.ReferenceIdeal Cert.ReferenceIdeal.Gen Idealize.ShloMosaic Idealize.ShloMosaic.ValueIdx

/-- An entry of a one-element list is that element. -/
theorem getElem_of_eq_singleton {β : Type} (l : List β) (c : β) (hl : l = [c]) (i : Nat) (hi : i < l.length) :
    l[i]'hi = c := by
  subst hl
  have : i = 0 := by simpa using hi
  subst this; rfl

/-! ## A scatter's landing index -/

/-- An update lands at `i` exactly when, on every operand axis, its start plus its window coordinate is `i`'s
    coordinate (an index of the operand is in range, so nothing is dropped). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro hh
    split at hh
    · next hin =>
      have := Option.some.inj hh
      intro a
      have ha := congrArg (fun f => ((f a).val : Int)) this
      simp only at ha
      have := (hin a).1
      rw [← ha]; omega
    · exact absurd hh (by simp)
  · intro hh
    have hin : ∀ a, 0 ≤ d.start j idx a + (d.window j a : Int) ∧ d.start j idx a + (d.window j a : Int) < s.size a := by
      intro a; rw [hh a]; exact ⟨by omega, by exact_mod_cast (i a).isLt⟩
    rw [dif_pos hin]
    congr 1
    funext a
    apply Fin.ext
    show (d.start j idx a + (d.window j a : Int)).toNat = (i a).val
    rw [hh a]; omega

section ScatterRows
variable {M K H w : Nat} (d : ScatterDims ⟨2, ![M, H]⟩ ⟨2, ![K, 1]⟩ ⟨2, ![K, H]⟩)
  (huw : d.updateWindowDims = [1]) (hiw : d.insertedWindowDims = [0]) (hsd : d.scatterDimsToOperandDims = [0])
  (hivd : d.indexVectorDim = 1) (idx : IVec ⟨2, ![K, 1]⟩ w) (k : Fin K) (h' : Fin H)
include huw hiw hsd hivd

/-- Rows scattered whole (operand axis 0 inserted and indexed by a column of row numbers, axis 1 the window axis): the
    start on axis 0 is the row number read signed. -/
theorem scatter_rows_start0 : d.start (ix2 k h') idx 0 = (idx (ix2 k 0)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    rw [getElem_of_eq_singleton d.uScatter 0 hus _ _]
    rfl
  | ⟨1, _⟩ =>
    unfold ScatterDims.siIdx
    rw [dif_pos (by rw [hivd])]
    apply Fin.ext
    show List.idxOf (0 : Fin 2) d.scatterDimsToOperandDims = 0
    rw [hsd]; simp

/-- … on axis 1 it is zero. -/
theorem scatter_rows_start1 : d.start (ix2 k h') idx 1 = 0 := by
  have hm : (1 : Fin 2) ∉ d.scatterDimsToOperandDims := by rw [hsd]; simp
  unfold ScatterDims.start
  rw [dif_neg hm]

/-- The window coordinate on the inserted axis 0 is zero … -/
theorem scatter_rows_window0 : d.window (ix2 k h') 0 = 0 := by
  have hk : (0 : Fin 2) ∉ d.sKept := by
    show (0 : Fin 2) ∉ Shape.kept _ d.insertedWindowDims
    rw [hiw]; simp [Shape.kept]
  unfold ScatterDims.window
  rw [dif_neg hk]

/-- … and on axis 1 it is the update's column. -/
theorem scatter_rows_window1 : d.window (ix2 k h') 1 = h'.val := by
  have hk : (1 : Fin 2) ∈ d.sKept := by
    show (1 : Fin 2) ∈ Shape.kept _ d.insertedWindowDims
    rw [hiw]; simp [Shape.kept]
  unfold ScatterDims.window
  rw [dif_pos hk]
  rw [getElem_of_eq_singleton d.updateWindowDims 1 huw _ _]
  rfl

/-- So update (k, h') lands at (r, h) exactly when row k's number, read signed, is r and h' = h. -/
theorem scatter_rows_lands_iff (r : Fin M) (h : Fin H) :
    d.resultIdx? (ix2 k h') idx = some (ix2 r h) ↔ (idx (ix2 k 0)).toInt = (r.val : Int) ∧ h' = h := by
  rw [resultIdx?_eq_some_iff]
  constructor
  · intro hh
    have h0 := hh 0
    have h1 := hh 1
    rw [scatter_rows_start0 d huw hiw hsd hivd, scatter_rows_window0 d huw hiw hsd hivd] at h0
    rw [scatter_rows_start1 d huw hiw hsd hivd, scatter_rows_window1 d huw hiw hsd hivd] at h1
    refine ⟨?_, Fin.ext ?_⟩
    · have h0' : (idx (ix2 k 0)).toInt = (((ix2 r h) 0).val : Int) := by simpa using h0
      exact h0'
    · have h1' : ((h'.val : Int)) = (((ix2 r h) 1).val : Int) := by simpa using h1
      have h1'' : h'.val = ((ix2 r h) 1).val := by exact_mod_cast h1'
      exact h1''
  · rintro ⟨h0, rfl⟩ a
    match a with
    | ⟨0, _⟩ =>
      show d.start (ix2 k h') idx 0 + (d.window (ix2 k h') 0 : Int) = _
      rw [scatter_rows_start0 d huw hiw hsd hivd, scatter_rows_window0 d huw hiw hsd hivd, h0]; simp
    | ⟨1, _⟩ =>
      show d.start (ix2 k h') idx 1 + (d.window (ix2 k h') 1 : Int) = _
      rw [scatter_rows_start1 d huw hiw hsd hivd, scatter_rows_window1 d huw hiw hsd hivd]; simp

end ScatterRows

section ScatterAddRows
variable {M K H w : Nat} (d : ScatterDims ⟨2, ![M, H]⟩ ⟨2, ![K, 1]⟩ ⟨2, ![K, H]⟩)
  (huw : d.updateWindowDims = [1]) (hiw : d.insertedWindowDims = [0]) (hsd : d.scatterDimsToOperandDims = [0])
  (hivd : d.indexVectorDim = 1)
include huw hiw hsd hivd

/-- Rows scatter-added, over the extended reals, read at (r, h): the operand there plus the sum, over the update rows
    whose row number is r, of their component h. -/
theorem scatterAdd_rows_apply (x : FVec Ideal ⟨2, ![M, H]⟩ .f32) (idx : IVec ⟨2, ![K, 1]⟩ w)
    (upd : FVec Ideal ⟨2, ![K, H]⟩ .f32) (r : Fin M) (h : Fin H) :
    Host.scatterAdd d x idx upd (ix2 r h)
      = x (ix2 r h) + ∑ k ∈ Finset.univ.filter (fun k : Fin K => (idx (ix2 k 0)).toInt = (r.val : Int)), upd (ix2 k h) := by
  unfold Host.scatterAdd
  rw [Ideal.hostScatterAdd_def]
  unfold Ideal.hostScatterAdd
  congr 1
  rw [Finset.sum_filter, sum_idx2, Finset.sum_filter]
  refine Finset.sum_congr rfl fun k _ => ?_
  simp only [scatter_rows_lands_iff d huw hiw hsd hivd]
  by_cases hr : (idx (ix2 k 0)).toInt = (r.val : Int)
  · simp [hr]
  · simp [hr]

end ScatterAddRows

/-! ## A row gather read at an index -/

/-- A row gather (operand axis 0 collapsed and start-indexed, axis 1 the offset axis, index vector on axis 1 of a
    column of start indices) read at (k, h): the operand at (clamped start of row k, h). -/
theorem gather_rows_apply {α : Type} {N K H w : Nat} (hN : 0 < N) (d : GatherDims ⟨2, ![N, H]⟩ ⟨2, ![K, 1]⟩ ⟨2, ![K, H]⟩)
    (hoff : d.offsetDims = [1]) (hcoll : d.collapsedSliceDims = [0]) (hob : d.operandBatchingDims = [])
    (hsim : d.startIndexMap = [0]) (hivd : d.indexVectorDim = 1)
    (x : (⟨2, ![N, H]⟩ : Shape).Idx → α) (idx : IVec ⟨2, ![K, 1]⟩ w) (k : Fin K) (h : Fin H) :
    Host.gather d x idx (ix2 k h) = x (ix2 ⟨min (idx (ix2 k 0)).toInt.toNat (N - 1), by omega⟩ h) := by
  unfold Host.gather
  congr 1
  funext a
  apply Fin.ext
  have hb : ∀ a : Fin 2, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 k h) idx 0 + d.batchCoord (ix2 k h) 0 + d.offCoord (ix2 k h) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 k 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      rw [getElem_of_eq_singleton d.batchDims 0 hbd _ _]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 k h) idx 1 + d.batchCoord (ix2 k h) 1 + d.offCoord (ix2 k h) 1 = _
    rw [GatherDims.batchCoord_eq_zero _ _ _ (by rw [hob]; exact List.not_mem_nil)]
    unfold GatherDims.start GatherDims.offCoord
    rw [dif_neg hm, dif_pos hk]
    simp only [Nat.add_zero, Nat.zero_add]
    rw [getElem_of_eq_singleton d.offsetDims 1 hoff _ _]
    rfl

/-! ## Re-indexings read at an index -/

section Reindex
variable {α : Type}

/-- [8192, 768] read as [32, 256, 768]: (b, n, h) is row b * 256 + n, column h. -/
theorem reshape_rows_apply (x : S8192x768.Idx → α) (b : Fin 32) (n : Fin 256) (h : Fin 768) :
    shapeCast S32x256x768 x shapeCasts_S8192x768_S32x256x768 (ix3 b n h)
      = x (ix2 ⟨b.val * 256 + n.val, by have := b.isLt; have := n.isLt; omega⟩ h) := by
  refine shapeCast_apply x _ _ _ ?_
  rw [Shape.rowMajor_val_two, Shape.rowMajor_val_three]
  rfl

/-- [32, 512] flattened to [16384]: position b * 512 + s is (b, s). -/
theorem flatten_apply (x : S32x512.Idx → α) (b : Fin 32) (s : Fin 512) :
    shapeCast S16384 x shapeCasts_S32x512_S16384 (ix1 ⟨b.val * 512 + s.val, by have := b.isLt; have := s.isLt; omega⟩)
      = x (ix2 b s) := by
  refine shapeCast_apply x _ _ _ ?_
  rw [Shape.rowMajor_val_two, Shape.rowMajor_val_one]
  rfl

/-- A vector as a column [16384, 1], read at (k, 0). -/
theorem column_apply (v : S16384.Idx → α) (k : Fin 16384) :
    broadcastInDim S16384x1 ![0] bcast_S16384_S16384x1_0 v (ix2 k 0) = v (ix1 k) := by
  refine broadcastInDim_apply _ _ v _ _ ?_
  intro a
  match a with
  | ⟨0, _⟩ => rfl

/-- A vector as a column and then along 768 columns, read at (k, h). -/
theorem column_bcast_apply (v : S16384.Idx → α) (k : Fin 16384) (h : Fin 768) :
    broadcastInDim S16384x768 ![0, 1] bcast_S16384x1_S16384x768_0_1
      (broadcastInDim S16384x1 ![0] bcast_S16384_S16384x1_0 v) (ix2 k h) = v (ix1 k) := by
  rw [broadcastInDim_apply _ _ _ _ (ix2 k (0 : Fin 1)) (by
    intro a
    match a with
    | ⟨0, _⟩ => rfl
    | ⟨1, _⟩ => rfl)]
  exact column_apply v k

end Reindex

/-! ## 32-bit words: no wrap, no sign -/

/-- `m * c + v` over 32-bit words is the same over the naturals when that stays below 2³². -/
theorem toNat_mul_add (m v : BitVec 32) (c : Nat) (h : m.toNat * c + v.toNat < 2 ^ 32) :
    (m * BitVec.ofNat 32 c + v).toNat = m.toNat * c + v.toNat := by
  rcases Nat.eq_zero_or_pos m.toNat with hm | hm
  · have : m = 0#32 := BitVec.eq_of_toNat_eq (by simpa using hm)
    subst this
    simp
  · have hc : c < 2 ^ 32 := by
      have : c ≤ m.toNat * c := Nat.le_mul_of_pos_left c hm
      omega
    rw [BitVec.toNat_add, BitVec.toNat_mul, BitVec.toNat_ofNat, Nat.mod_eq_of_lt hc,
      Nat.mod_eq_of_lt (show m.toNat * c < 2 ^ 32 by omega), Nat.mod_eq_of_lt h]

/-- The sign normalisation of an index leaves a word below 2³¹ as it is. -/
theorem normalise_nonneg (x c : BitVec 32) (hx : x.toNat < 2 ^ 31) :
    Scalar.select (IntOp.cmpi .slt x 0#32) (IntOp.addi x c) x = x := by
  have h0 : ¬ IntOp.cmpi .slt x 0#32 = 1#1 := by
    rw [StableHlo.Predicate.slt_iff_toNat hx (by decide)]
    simp
  exact if_neg h0

/-! ## The stages read at an index, under the range hypotheses -/

/-- Reading an array at two rows with the same number. -/
theorem ix2_row_congr {α : Type} {n0 n1 : Nat} (x : (⟨2, ![n0, n1]⟩ : Shape).Idx → α) {r r' : Fin n0} (hr : r.val = r'.val)
    (c : Fin n1) : x (ix2 r c) = x (ix2 r' c) := by
  rw [Fin.ext hr]

section Stages
variable (a0 : IVec S32x512 32) (a1 a2 a3 : IVec S16384 32) (a4 : FVec Ideal S16384 .f32) (a5 : FVec Ideal S30522x768 .f32)
  (R : Cert.Spec.Ranges a0 a1 a2 a3)
include R

/-- The segment word of triple k, read signed, is `mb k * 256 + mn k` over the naturals. -/
theorem Rseg_toInt (k : Fin 16384) :
    (Rseg a1 a2 (ix1 k)).toInt = (((a1 (ix1 k)).toNat * 256 + (a2 (ix1 k)).toNat : Nat) : Int) := by
  have h1 := R.mb_lt (ix1 k)
  have h2 := R.mn_lt (ix1 k)
  have hn : (Rseg a1 a2 (ix1 k)).toNat = (a1 (ix1 k)).toNat * 256 + (a2 (ix1 k)).toNat :=
    toNat_mul_add (a1 (ix1 k)) (a2 (ix1 k)) 256 (by omega)
  rw [StableHlo.Predicate.toInt_eq_toNat_of_lt (by omega), hn]

/-- The source word of triple k (after the sign normalisation, which does nothing) is `mb k * 512 + ms k`. -/
theorem Rsrc_toNat (k : Fin 16384) :
    (Rsrc a1 a3 (ix1 k)).toNat = (a1 (ix1 k)).toNat * 512 + (a3 (ix1 k)).toNat := by
  have h1 := R.mb_lt (ix1 k)
  have h3 := R.ms_lt (ix1 k)
  have hn : (Rsrc0 a1 a3 (ix1 k)).toNat = (a1 (ix1 k)).toNat * 512 + (a3 (ix1 k)).toNat :=
    toNat_mul_add (a1 (ix1 k)) (a3 (ix1 k)) 512 (by omega)
  have : Rsrc a1 a3 (ix1 k) = Rsrc0 a1 a3 (ix1 k) :=
    normalise_nonneg (Rsrc0 a1 a3 (ix1 k)) 16384#32 (by omega)
  rw [this, hn]

/-- The normalised flattened id at position b * 512 + s is the id of subword s of batch b. -/
theorem Rids_apply (b : Fin 32) (s : Fin 512) :
    Rids a0 (ix1 ⟨b.val * 512 + s.val, by have := b.isLt; have := s.isLt; omega⟩) = a0 (ix2 b s) := by
  have hf : Rflat a0 (ix1 ⟨b.val * 512 + s.val, by have := b.isLt; have := s.isLt; omega⟩) = a0 (ix2 b s) :=
    flatten_apply a0 b s
  have hlt := R.ids_lt (ix2 b s)
  have : Rids a0 (ix1 ⟨b.val * 512 + s.val, by have := b.isLt; have := s.isLt; omega⟩)
      = Rflat a0 (ix1 ⟨b.val * 512 + s.val, by have := b.isLt; have := s.isLt; omega⟩) :=
    normalise_nonneg _ 30522#32 (by rw [hf]; omega)
  rw [this, hf]

end Stages

section Stages2
variable (a0 : IVec S32x512 32) (a1 a2 a3 : IVec S16384 32) (a4 : FVec Ideal S16384 .f32) (a5 : FVec Ideal S30522x768 .f32)
  (R : Cert.Spec.Ranges a0 a1 a2 a3)
include R

/-- Row b * 512 + s of the gathered table rows is the (row-0-zeroed) table's row `ids (b, s)`. -/
theorem Rsub_apply (b : Fin 32) (s : Fin 512) (h : Fin 768) :
    Rsub (F := Ideal) a0 a5 (ix2 ⟨b.val * 512 + s.val, by have := b.isLt; have := s.isLt; omega⟩ h)
      = Rtable (F := Ideal) a5 (ix2 ⟨(a0 (ix2 b s)).toNat, R.ids_lt (ix2 b s)⟩ h) := by
  unfold Rsub
  rw [gather_rows_apply (by decide) _ rfl rfl rfl rfl rfl]
  refine ix2_row_congr _ ?_ h
  show min (broadcastInDim S16384x1 ![0] bcast_S16384_S16384x1_0 (Rids a0) (ix2 _ 0)).toInt.toNat (30522 - 1) = _
  rw [column_apply, Rids_apply a0 a1 a2 a3 R b s]
  have hlt := R.ids_lt (ix2 b s)
  rw [StableHlo.Predicate.toInt_eq_toNat_of_lt (by omega)]
  simp only [Int.toNat_natCast]
  omega

/-- The contribution of triple k, component h: the gathered row at `mb k * 512 + ms k` times the weight. -/
theorem Rcontrib_apply (k : Fin 16384) (h : Fin 768) :
    Rcontrib (F := Ideal) a0 a1 a3 a4 a5 (ix2 k h)
      = Rtable (F := Ideal) a5 (ix2 ⟨(a0 (ix2 ⟨(a1 (ix1 k)).toNat, R.mb_lt (ix1 k)⟩ ⟨(a3 (ix1 k)).toNat, R.ms_lt (ix1 k)⟩)).toNat,
          R.ids_lt _⟩ h) * a4 (ix1 k) := by
  unfold Rcontrib
  rw [mulf_apply, column_bcast_apply, gather_rows_apply (by decide) _ rfl rfl rfl rfl rfl]
  congr 1
  rw [← Rsub_apply a0 a1 a2 a3 a5 R ⟨(a1 (ix1 k)).toNat, R.mb_lt (ix1 k)⟩ ⟨(a3 (ix1 k)).toNat, R.ms_lt (ix1 k)⟩ h]
  refine ix2_row_congr _ ?_ h
  show min (broadcastInDim S16384x1 ![0] bcast_S16384_S16384x1_0 (Rsrc a1 a3) (ix2 k 0)).toInt.toNat (16384 - 1) = _
  have h1 := R.mb_lt (ix1 k)
  have h3 := R.ms_lt (ix1 k)
  have hn := Rsrc_toNat a0 a1 a2 a3 R k
  rw [column_apply, StableHlo.Predicate.toInt_eq_toNat_of_lt (by omega), hn]
  simp only [Int.toNat_natCast]
  omega

end Stages2

section Pooled
variable (a0 : IVec S32x512 32) (a1 a2 a3 : IVec S16384 32) (a4 : FVec Ideal S16384 .f32) (a5 : FVec Ideal S30522x768 .f32)
  (R : Cert.Spec.Ranges a0 a1 a2 a3)
include R

/-- The zeroed-row-0 table at the row an id names is the specification's embedding: the zero row for the padding id 0,
    else the table's row (an id in range is its own residue modulo the table's height). -/
theorem table_row_eq_emb (i : S32x512.Idx) (h : Fin 768) :
    Rtable (F := Ideal) a5 (ix2 ⟨(a0 i).toNat, R.ids_lt i⟩ h)
      = if a0 i = 0#32 then 0 else a5 (ix2 (Cert.Spec.rowOf (a0 i)) h) := by
  rw [Rtable_apply]
  have hlt := R.ids_lt i
  by_cases hw : a0 i = 0#32
  · rw [if_pos hw, if_pos (by show (a0 i).toNat = 0; rw [hw]; rfl)]
  · have hne : ¬ (a0 i).toNat = 0 := fun h0 => hw (BitVec.eq_of_toNat_eq (by simpa using h0))
    rw [if_neg hw, if_neg (by show ¬ (a0 i).toNat = 0; exact hne)]
    refine ix2_row_congr a5 ?_ h
    show (a0 i).toNat = (a0 i).toNat % 30522
    rw [Nat.mod_eq_of_lt hlt]

/-- The contribution of a triple of batch b is its weight times the embedding of the subword it names. -/
theorem contrib_eq_emb (k : Fin 16384) (b : Fin 32) (hb : (a1 (ix1 k)).toNat = b.val) (h : Fin 768) :
    Rcontrib (F := Ideal) a0 a1 a3 a4 a5 (ix2 k h)
      = a4 (ix1 k) * Cert.Spec.emb a0 a5 b (Cert.Spec.subOf (a3 (ix1 k))) h := by
  rw [Rcontrib_apply a0 a1 a2 a3 a4 a5 R k h, table_row_eq_emb a0 a1 a2 a3 a5 R, mul_comm]
  have hms := R.ms_lt (ix1 k)
  have hI : (ix2 ⟨(a1 (ix1 k)).toNat, R.mb_lt (ix1 k)⟩ ⟨(a3 (ix1 k)).toNat, R.ms_lt (ix1 k)⟩ : S32x512.Idx)
      = ix2 b (Cert.Spec.subOf (a3 (ix1 k))) := by
    have e0 : (⟨(a1 (ix1 k)).toNat, R.mb_lt (ix1 k)⟩ : Fin 32) = b := Fin.ext hb
    have e1 : (⟨(a3 (ix1 k)).toNat, R.ms_lt (ix1 k)⟩ : Fin 512) = Cert.Spec.subOf (a3 (ix1 k)) :=
      Fin.ext (by show _ = _ % 512; rw [Nat.mod_eq_of_lt hms])
    rw [e0, e1]
  rw [hI]
  rfl

/-- THE POOLED ARRAY AT (b, n, h): the sum, over the triples of batch b and node n, of weight times embedding. -/
theorem Rpooled_apply (b : Fin 32) (n : Fin 256) (h : Fin 768) :
    Rpooled (F := Ideal) a0 a1 a2 a3 a4 a5 (ix3 b n h) = Cert.Spec.pool a0 a1 a2 a3 a4 a5 b n h := by
  unfold Rpooled Rpooled2
  rw [reshape_rows_apply, scatterAdd_rows_apply _ rfl rfl rfl rfl]
  have hz : broadcastInDim S8192x768 ![] bcast_S_S8192x768 (constant (F := Ideal) S_ .f32 0x00000000#32)
      (ix2 ⟨b.val * 256 + n.val, by have := b.isLt; have := n.isLt; omega⟩ h) = 0 := Ideal.ofBits_zero_f32
  rw [hz, zero_add]
  unfold Cert.Spec.pool
  have hfilter : Finset.univ.filter (fun k : Fin 16384 =>
        (broadcastInDim S16384x1 ![0] bcast_S16384_S16384x1_0 (Rseg a1 a2) (ix2 k 0)).toInt
          = (((⟨b.val * 256 + n.val, by have := b.isLt; have := n.isLt; omega⟩ : Fin 8192).val : Nat) : Int))
      = Finset.univ.filter (fun k : Fin 16384 => (a1 (ix1 k)).toNat = b.val ∧ (a2 (ix1 k)).toNat = n.val) := by
    refine Finset.filter_congr fun k _ => ?_
    rw [column_apply, Rseg_toInt a0 a1 a2 a3 R k]
    have h2 := R.mn_lt (ix1 k)
    have hn := n.isLt
    constructor
    · intro hh
      have : (a1 (ix1 k)).toNat * 256 + (a2 (ix1 k)).toNat = b.val * 256 + n.val := by exact_mod_cast hh
      omega
    · rintro ⟨e1, e2⟩
      rw [e1, e2]
  rw [hfilter]
  refine Finset.sum_congr rfl fun k hk => ?_
  have hk' := (Finset.mem_filter.mp hk).2
  exact contrib_eq_emb a0 a1 a2 a3 a4 a5 R k b hk'.1 h

end Pooled

/-- The reference's result at (b, n, h) is the specification's value there. -/
theorem Rout_apply (a0 : IVec S32x512 32) (a1 a2 a3 : IVec S16384 32) (a4 : FVec Ideal S16384 .f32) (a5 : FVec Ideal S30522x768 .f32) (a6 a7 : FVec Ideal S768 .f32)
    (R : Cert.Spec.Ranges a0 a1 a2 a3) (Fn : Cert.Spec.Finite a4 a5 a6 a7) (b : Fin 32) (n : Fin 256) (h : Fin 768) :
    Rout (F := Ideal) a0 a1 a2 a3 a4 a5 a6 a7 (ix3 b n h) = Cert.Spec.Gat a0 a1 a2 a3 a4 a5 a6 a7 b n h := by
  unfold Rout Cert.Spec.Gat
  rw [RlnHost_apply]
  have hrow : (fun h' : Fin 768 => Rpooled (F := Ideal) a0 a1 a2 a3 a4 a5 (ix3 b n h'))
      = fun h' => Cert.Spec.pool a0 a1 a2 a3 a4 a5 b n h' :=
    funext fun h' => Rpooled_apply a0 a1 a2 a3 a4 a5 R b n h'
  rw [hrow]

end Cert.ReferenceIdeal.Hand

end
-- ==== Proof.PreFacts.lean ====
/-
  The printed precondition, decoded: when it evaluates to true, every integer input lies in the range of the axis it
  indexes, and every float input is a real number.
-/
import proofs.«413540_j35467839930966_2_alg».proof.Proof.Gen.Pre_finite_inputs
import proofs.«413540_j35467839930966_2_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.Proof.Pre

open Idealize.ShloMosaic Idealize.ShloMosaic.ValueIdx
open Cert.Pre_finite_inputs Cert.Pre_finite_inputs.Gen

/-- The scalar shape has one index. -/
instance subsingleton_scalarIdx : Subsingleton (⟨0, ![]⟩ : Shape).Idx := ⟨fun _ _ => funext fun d => d.elim0⟩

/-- A word that is non-negative and below `n` as a signed number is below `n` as an unsigned one. -/
theorem toNat_lt_of_signed (w c0 cn : BitVec 32) (n : Nat) (hn : n < 2 ^ 31) (hc0 : c0 = 0#32) (hcn : cn = BitVec.ofNat 32 n)
    (h0 : IntOp.cmpi .sge w c0 = 1#1) (h1 : IntOp.cmpi .slt w cn = 1#1) : w.toNat < n := by
  subst hc0 hcn
  rw [IntOp.cmpi_sge] at h0
  rw [IntOp.cmpi_slt, StableHlo.Predicate.toInt_ofNat_small n hn] at h1
  have hz : (0#32 : BitVec 32).toInt = 0 := by decide
  rw [hz] at h0
  have h32 := w.isLt
  unfold BitVec.toInt at h0 h1
  split at h1 <;> omega

/-- An extended real whose absolute value is below `+∞` (the f32 pattern `0x7F800000`) is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- The conjunction the precondition is, split into its eight `all`s, each read at every index: the four float inputs
    have absolute value below `+∞`, the four integer inputs are non-negative and below their extents (signed). -/
theorem pre_split (a0 : IVec ⟨2, ![32, 512]⟩ 32) (a1 a2 a3 : IVec ⟨1, ![16384]⟩ 32)
    (a4 : FVec Ideal ⟨1, ![16384]⟩ .f32) (a5 : FVec Ideal ⟨2, ![30522, 768]⟩ .f32) (a6 a7 : FVec Ideal ⟨1, ![768]⟩ .f32)
    (h : Cert.Pre_finite_inputs.fn (F := Ideal) a0 a1 a2 a3 a4 a5 a6 a7 = fun _ => 1#1) :
    ((∀ i, FloatOps.cmpf .olt (FloatOps.hostAbsf (a4 i)) (FloatOps.ofBits (F := Ideal) .f32 0x7F800000#32) = 1#1)
      ∧ (∀ i, FloatOps.cmpf .olt (FloatOps.hostAbsf (a5 i)) (FloatOps.ofBits (F := Ideal) .f32 0x7F800000#32) = 1#1)
      ∧ (∀ i, FloatOps.cmpf .olt (FloatOps.hostAbsf (a6 i)) (FloatOps.ofBits (F := Ideal) .f32 0x7F800000#32) = 1#1)
      ∧ (∀ i, FloatOps.cmpf .olt (FloatOps.hostAbsf (a7 i)) (FloatOps.ofBits (F := Ideal) .f32 0x7F800000#32) = 1#1))
    ∧ ((∀ i, IntOp.cmpi .sge (a0 i) 0#32 = 1#1 ∧ IntOp.cmpi .slt (a0 i) 30522#32 = 1#1)
      ∧ (∀ i, IntOp.cmpi .sge (a1 i) 0#32 = 1#1 ∧ IntOp.cmpi .slt (a1 i) 32#32 = 1#1)
      ∧ (∀ i, IntOp.cmpi .sge (a2 i) 0#32 = 1#1 ∧ IntOp.cmpi .slt (a2 i) 256#32 = 1#1)
      ∧ (∀ i, IntOp.cmpi .sge (a3 i) 0#32 = 1#1 ∧ IntOp.cmpi .slt (a3 i) 512#32 = 1#1)) := by
  have e := congrFun h ix0
  dsimp only [Cert.Pre_finite_inputs.fn, fn_part1, fn_part2] at e
  obtain ⟨e39, e45⟩ := IntOp.andi_eq_one.1 e
  obtain ⟨e32, e38⟩ := IntOp.andi_eq_one.1 e39
  obtain ⟨e25, e31⟩ := IntOp.andi_eq_one.1 e32
  obtain ⟨e18, e24⟩ := IntOp.andi_eq_one.1 e25
  obtain ⟨e13, e17⟩ := IntOp.andi_eq_one.1 e18
  obtain ⟨e8, e12⟩ := IntOp.andi_eq_one.1 e13
  obtain ⟨e3, e7⟩ := IntOp.andi_eq_one.1 e8
  refine ⟨⟨fun i => ?_, fun i => ?_, fun i => ?_, fun i => ?_⟩, ⟨fun i => ?_, fun i => ?_, fun i => ?_, fun i => ?_⟩⟩
  · exact Host.reduce_andi_all _ _ _ _ ix0 e3 i
  · exact Host.reduce_andi_all _ _ _ _ ix0 e7 i
  · exact Host.reduce_andi_all _ _ _ _ ix0 e12 i
  · exact Host.reduce_andi_all _ _ _ _ ix0 e17 i
  · exact IntOp.andi_eq_one.1 (Host.reduce_andi_all _ _ _ _ ix0 e24 i)
  · exact IntOp.andi_eq_one.1 (Host.reduce_andi_all _ _ _ _ ix0 e31 i)
  · exact IntOp.andi_eq_one.1 (Host.reduce_andi_all _ _ _ _ ix0 e38 i)
  · exact IntOp.andi_eq_one.1 (Host.reduce_andi_all _ _ _ _ ix0 e45 i)

/-- Under the precondition every integer input lies in the range of the axis it indexes. -/
theorem ranges_of_pre (a0 : IVec ⟨2, ![32, 512]⟩ 32) (a1 a2 a3 : IVec ⟨1, ![16384]⟩ 32)
    (a4 : FVec Ideal ⟨1, ![16384]⟩ .f32) (a5 : FVec Ideal ⟨2, ![30522, 768]⟩ .f32) (a6 a7 : FVec Ideal ⟨1, ![768]⟩ .f32)
    (h : Cert.Pre_finite_inputs.fn (F := Ideal) a0 a1 a2 a3 a4 a5 a6 a7 = fun _ => 1#1) :
    Cert.Spec.Ranges a0 a1 a2 a3 := by
  obtain ⟨-, h0, h1, h2, h3⟩ := pre_split a0 a1 a2 a3 a4 a5 a6 a7 h
  exact
    { ids_lt := fun i => toNat_lt_of_signed _ _ _ 30522 (by norm_num) rfl rfl (h0 i).1 (h0 i).2
      mb_lt := fun i => toNat_lt_of_signed _ _ _ 32 (by norm_num) rfl rfl (h1 i).1 (h1 i).2
      mn_lt := fun i => toNat_lt_of_signed _ _ _ 256 (by norm_num) rfl rfl (h2 i).1 (h2 i).2
      ms_lt := fun i => toNat_lt_of_signed _ _ _ 512 (by norm_num) rfl rfl (h3 i).1 (h3 i).2 }

/-- Under the precondition every float input is a real number. -/
theorem finite_of_pre (a0 : IVec ⟨2, ![32, 512]⟩ 32) (a1 a2 a3 : IVec ⟨1, ![16384]⟩ 32)
    (a4 : FVec Ideal ⟨1, ![16384]⟩ .f32) (a5 : FVec Ideal ⟨2, ![30522, 768]⟩ .f32) (a6 a7 : FVec Ideal ⟨1, ![768]⟩ .f32)
    (h : Cert.Pre_finite_inputs.fn (F := Ideal) a0 a1 a2 a3 a4 a5 a6 a7 = fun _ => 1#1) :
    Cert.Spec.Finite a4 a5 a6 a7 := by
  obtain ⟨⟨h4, h5, h6, h7⟩, -⟩ := pre_split a0 a1 a2 a3 a4 a5 a6 a7 h
  exact
    { vals_real := fun i => real_of_abs_lt_inf _ (h4 i)
      tab_real := fun i => real_of_abs_lt_inf _ (h5 i)
      γ_real := fun i => real_of_abs_lt_inf _ (h6 i)
      β_real := fun i => real_of_abs_lt_inf _ (h7 i) }

end Cert.Proof.Pre

end
-- ==== Proof.PoolAlgebra.lean ====
/-
  The pooling matrix times the embeddings is the weighted sum over the triples.

  The pooling matrix has, at row `n` and column `s` of batch `b`, the sum of the weights of the triples `(b, n, s)`.
  Its product with the embeddings, `∑ s, M b n s · emb b s h`, is the sum over the triples `(b, n, ·)` of weight times the
  embedding at the triple's subword position: a sum of reals times a real distributes, and the double sum over the
  position `s` and the triples at `s` is the single sum over the triples.
-/
import proofs.«413540_j35467839930966_2_alg».proof.Proof.Spec

noncomputable section

namespace Cert.Spec

open Idealize.ShloMosaic Idealize.ShloMosaic.ValueIdx

/-- The coercion of the reals into the extended reals carries a finite sum to the sum of the coercions. -/
theorem coe_finset_sum {ι : Type} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- On the extended reals, a finite sum of reals times a real is the sum of the products. -/
theorem sum_mul_of_real {ι : Type} (S : Finset ι) (f : ι → EReal) (e : EReal) (hf : ∀ k, ∃ r : ℝ, f k = (r : EReal))
    (he : ∃ r : ℝ, e = (r : EReal)) : (∑ k ∈ S, f k) * e = ∑ k ∈ S, f k * e := by
  obtain ⟨r, rfl⟩ := he
  choose v hv using hf
  simp only [hv]
  rw [← coe_finset_sum, ← EReal.coe_mul, Finset.sum_mul, coe_finset_sum]
  simp only [EReal.coe_mul]

/-- An embedding component is a real: zero, or a table entry. -/
theorem emb_real (ids : (⟨2, ![32, 512]⟩ : Shape).Idx → BitVec 32) (tab : (⟨2, ![30522, 768]⟩ : Shape).Idx → EReal)
    (ht : ∀ i, ∃ r : ℝ, tab i = (r : EReal)) (b : Fin 32) (s : Fin 512) (h : Fin 768) :
    ∃ r : ℝ, emb ids tab b s h = (r : EReal) := by
  unfold emb
  split
  · exact ⟨0, rfl⟩
  · exact ht _

/-- The pooling matrix times the embeddings, at node `n` of batch `b`, is the pooled row: the weighted sum over the node's
    triples of the embeddings at their subword positions. -/
theorem matmul_pool (ids : (⟨2, ![32, 512]⟩ : Shape).Idx → BitVec 32) (mb mn ms : (⟨1, ![16384]⟩ : Shape).Idx → BitVec 32)
    (vals : (⟨1, ![16384]⟩ : Shape).Idx → EReal) (tab : (⟨2, ![30522, 768]⟩ : Shape).Idx → EReal)
    (γ β : (⟨1, ![768]⟩ : Shape).Idx → EReal)
    (R : Ranges ids mb mn ms) (Fn : Finite vals tab γ β) (b : Fin 32) (n : Fin 256) (h : Fin 768) :
    (∑ s : Fin 512, (∑ k ∈ Finset.univ.filter (fun k : Fin 16384 =>
        (mb (ix1 k)).toNat = b.val ∧ (mn (ix1 k)).toNat = n.val ∧ (ms (ix1 k)).toNat = s.val), vals (ix1 k))
          * emb ids tab b s h)
      = pool ids mb mn ms vals tab b n h := by
  unfold pool
  -- at each position: distribute, and write the triples at `s` as the triples of the node, those off `s` giving zero
  have hstep : ∀ s : Fin 512,
      (∑ k ∈ Finset.univ.filter (fun k : Fin 16384 =>
        (mb (ix1 k)).toNat = b.val ∧ (mn (ix1 k)).toNat = n.val ∧ (ms (ix1 k)).toNat = s.val), vals (ix1 k))
          * emb ids tab b s h
        = ∑ k ∈ Finset.univ.filter (fun k : Fin 16384 => (mb (ix1 k)).toNat = b.val ∧ (mn (ix1 k)).toNat = n.val),
            if (ms (ix1 k)).toNat = s.val then vals (ix1 k) * emb ids tab b s h else 0 := by
    intro s
    rw [sum_mul_of_real _ (fun k => vals (ix1 k)) _ (fun k => Fn.vals_real _) (emb_real ids tab Fn.tab_real b s h)]
    rw [← Finset.sum_filter, Finset.filter_filter]
    refine Finset.sum_congr ?_ (fun _ _ => rfl)
    ext k
    simp only [Finset.mem_filter, Finset.mem_univ, true_and, and_assoc]
  rw [Finset.sum_congr rfl (fun s _ => hstep s), Finset.sum_comm]
  refine Finset.sum_congr rfl (fun k _ => ?_)
  -- one triple: of the 512 positions only its own contributes
  have hs : (ms (ix1 k)).toNat % 512 = (ms (ix1 k)).toNat := Nat.mod_eq_of_lt (R.ms_lt _)
  rw [Finset.sum_eq_single (subOf (ms (ix1 k)))]
  · rw [if_pos]
    exact hs.symm
  · intro s _ hne
    rw [if_neg]
    intro heq
    exact hne (Fin.ext (by show s.val = (ms (ix1 k)).toNat % 512; rw [hs]; exact heq.symm))
  · intro hh
    exact absurd (Finset.mem_univ _) hh

end Cert.Spec

end
-- ==== Proof.lean ====
/-
  The certificate's claims, assembled.

  Both idealized programs compute, at every index (b, n, h) of the result, the LayerNorm over h of the pooled node embeddings
  pool b n h = ∑ over the COO triples k with (batch, node) = (b, n) of weight k · embedding(b, position k, h), the padding id
  giving the zero embedding (`Cert.Spec.G`). The kernel reaches it as the product of the scatter-added dense pooling matrix with
  the masked embedding gather, block by block over the grid; the reference as a weighted segment sum over gathered rows. Under
  the precondition (every index inside the axis it indexes, every float a real) the two are one function: the matrix product
  distributes over the triples that land on an entry, which is where finiteness is used.
  The three frames: the two kernel programs' by the pipeline's frame run with the body's one whole-block store; the
  reference's by its run with the result dropped. The idealization rewrote nothing, so `preserves` is trivial.
-/
import proofs.«413540_j35467839930966_2_alg».proof.Defs
import proofs.«413540_j35467839930966_2_alg».proof.Proof.Gen.Kernel
import proofs.«413540_j35467839930966_2_alg».proof.Proof.Gen.KernelIdeal
import proofs.«413540_j35467839930966_2_alg».proof.Proof.Gen.ReferenceIdeal
import proofs.«413540_j35467839930966_2_alg».proof.Proof.Gen.Pre_finite_inputs
import proofs.«413540_j35467839930966_2_alg».proof.Proof.KFrame
import proofs.«413540_j35467839930966_2_alg».proof.Proof.KIFrame
import proofs.«413540_j35467839930966_2_alg».proof.Proof.KIValue
import proofs.«413540_j35467839930966_2_alg».proof.Proof.KIHostScatter
import proofs.«413540_j35467839930966_2_alg».proof.Proof.KIHostGather
import proofs.«413540_j35467839930966_2_alg».proof.Proof.RefRun
import proofs.«413540_j35467839930966_2_alg».proof.Proof.RefRead
import proofs.«413540_j35467839930966_2_alg».proof.Proof.PreFacts
import proofs.«413540_j35467839930966_2_alg».proof.Proof.PoolAlgebra

noncomputable section

namespace Cert.Proof

open Idealize.ShloMosaic Idealize.ShloMosaic.TcCoe Idealize.ShloMosaic.ValueIdx Idealize.SL.Sem

/-- The word-level kernel program runs and leaves its arguments as they were. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

section Kernel
open Cert.KernelIdeal Cert.KernelIdeal.Hand

/-- Under the ranges and finiteness, the kernel's result array is the specification: entry (b, n, s) of the pooling matrix
    is the sum of the weights of the triples landing there, the embedding array is the masked table lookup, and the row
    product distributes over the triples. -/
theorem kout_eq (m : (ℓ : Loc nD τ sig) → Buf (Elt Ideal) ℓ) (c : Dev nD)
    (R : Cert.Spec.Ranges (m ((c : Thread nD τ).loc main_arg0)) (m ((c : Thread nD τ).loc main_arg1))
      (m ((c : Thread nD τ).loc main_arg2)) (m ((c : Thread nD τ).loc main_arg3)))
    (Fn : Cert.Spec.Finite (m ((c : Thread nD τ).loc main_arg4)) (m ((c : Thread nD τ).loc main_arg5))
      (m ((c : Thread nD τ).loc main_arg6)) (m ((c : Thread nD τ).loc main_arg7))) :
    Kout m c = Cert.Spec.G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  funext i
  obtain ⟨b, n, h, rfl⟩ : ∃ (b : Fin 32) (n : Fin 256) (h : Fin 768), i = ix3 b n h := ⟨i 0, i 1, i 2, eq_ix3 i⟩
  rw [Cert.Spec.G_ix3]
  show Cert.Spec.lnRow (fun h' => ∑ s : Fin 512, @HMul.hMul EReal EReal EReal _ (V m c main_v32 (ix3 b n s)) (V m c main_v11 (ix3 b s h')))
      (fun h' => V m c main_v33 (ix2 0 h')) (fun h' => V m c main_v34 (ix2 0 h')) h = _
  simp only [V_v32_apply m c R, V_v11_apply m c R, V_v33_apply m c, V_v34_apply m c]
  unfold Cert.Spec.Gat
  simp only [Cert.Spec.matmul_pool _ _ _ _ _ _ _ _ R Fn]

end Kernel

/-- At the ideal instance, from memories agreeing on the arguments, both programs end with the specification's array. -/
theorem algebraic : Cert.algebraic_KernelIdeal_ReferenceIdeal := by
  intro m ρ m' ρ' hpre hagree
  have hR := fun c => Cert.Proof.Pre.ranges_of_pre _ _ _ _ _ _ _ _ (hpre c)
  have hF := fun c => Cert.Proof.Pre.finite_of_pre _ _ _ _ _ _ _ _ (hpre c)
  refine ⟨fun c => Cert.KernelIdeal.Hand.Kout m c, Cert.KernelIdeal.Hand.run_V m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7⟩ := hagree c
  rw [e0, e1, e2, e3, e4, e5, e6, e7]
  show _ = Cert.KernelIdeal.Hand.Kout m c
  rw [kout_eq m c (hR c) (hF c)]
  funext i
  obtain ⟨b, n, h, rfl⟩ : ∃ (b : Fin 32) (n : Fin 256) (h : Fin 768), i = ix3 b n h := ⟨i 0, i 1, i 2, eq_ix3 i⟩
  rw [Cert.Spec.G_ix3]
  exact Cert.ReferenceIdeal.Hand.Rout_apply _ _ _ _ _ _ _ _ (hR c) (hF c) b n h

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
